-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x500 : Shape := ⟨2, ![262144, 500]⟩
abbrev S2x8388608 : Shape := ⟨2, ![2, 8388608]⟩
abbrev S500x8 : Shape := ⟨2, ![500, 8]⟩
abbrev S8 : Shape := ⟨1, ![8]⟩
abbrev S8x3 : Shape := ⟨2, ![8, 3]⟩
abbrev S3 : Shape := ⟨1, ![3]⟩
abbrev S_ : Shape := ⟨0, ![]⟩
abbrev S1x8388608 : Shape := ⟨2, ![1, 8388608]⟩
abbrev S8388608 : Shape := ⟨1, ![8388608]⟩

class Facts : Prop where
  bcast_S_S262144x500 : S_.BroadcastsInDim S262144x500 (![] : Fin 0 → Fin S262144x500.rank)
  reducesTo_S262144x500_S_d0_1 : S262144x500.ReducesTo [0, 1] S_
  h_S_ : 0 < S_.numel
  bcast_S_S500x8 : S_.BroadcastsInDim S500x8 (![] : Fin 0 → Fin S500x8.rank)
  reducesTo_S500x8_S_d0_1 : S500x8.ReducesTo [0, 1] S_
  bcast_S_S8 : S_.BroadcastsInDim S8 (![] : Fin 0 → Fin S8.rank)
  reducesTo_S8_S_d0 : S8.ReducesTo [0] S_
  bcast_S_S8x3 : S_.BroadcastsInDim S8x3 (![] : Fin 0 → Fin S8x3.rank)
  reducesTo_S8x3_S_d0_1 : S8x3.ReducesTo [0, 1] S_
  bcast_S_S3 : S_.BroadcastsInDim S3 (![] : Fin 0 → Fin S3.rank)
  reducesTo_S3_S_d0 : S3.ReducesTo [0] S_
  slices_S2x8388608_S1x8388608_0_0 : S2x8388608.Slices ![0, 0] S1x8388608
  shapeCasts_S1x8388608_S8388608 : S1x8388608.ShapeCasts S8388608
  bcast_S_S8388608 : S_.BroadcastsInDim S8388608 (![] : Fin 0 → Fin S8388608.rank)
  reducesTo_S8388608_S_d0 : S8388608.ReducesTo [0] S_

variable [Facts]

def fn_part1 {F : FTy → Type} [FloatOps F] (main_arg1 : IVec S2x8388608 32) (main_arg5 : FVec F S3 .f32) (main_v13 : IVec S_ 1) (main_v16 : IVec S8x3 1) : IVec S_ 1 :=
  let main_c_5 : IVec S_ 1 := constantI S_ 1 1#1
  let main_v17 : IVec S_ 1 := (fun x v => Host.reduce IntOp.andi x v reducesTo_S8x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : IVec S1x8388608 32 := (extractStridedSlice S1x8388608 ![0, 0] · slices_S2x8388608_S1x8388608_0_0) main_arg1
  let main_v25 : IVec S8388608 32 := shapeCast S8388608 main_v24 shapeCasts_S1x8388608_S8388608
  let main_c_8 : IVec S_ 32 := constantI S_ 32 4294705152#32
  let main_v26 : IVec S8388608 32 := broadcastInDim S8388608 ![] bcast_S_S8388608 main_c_8
  let main_v27 : IVec S8388608 1 := cmpi .sge main_v25 main_v26
  let main_v28 : IVec S1x8388608 32 := (extractStridedSlice S1x8388608 ![0, 0] · slices_S2x8388608_S1x8388608_0_0) main_arg1
  let main_v29 : IVec S8388608 32 := shapeCast S8388608 main_v28 shapeCasts_S1x8388608_S8388608
  let main_c_9 : IVec S_ 32 := constantI S_ 32 262144#32
  let main_v30 : IVec S8388608 32 := broadcastInDim S8388608 ![] bcast_S_S8388608 main_c_9
  let main_v31 : IVec S8388608 1 := cmpi .slt main_v29 main_v30
  let main_v32 : IVec S8388608 1 := andi main_v27 main_v31
  let main_c_10 : IVec S_ 1 := constantI S_ 1 1#1
  let main_v33 : IVec S_ 1 := (fun x v => Host.reduce IntOp.andi x v reducesTo_S8388608_S_d0 h_S_) main_v32 main_c_10
  let main_v34 : IVec S_ 1 := andi main_v23 main_v33
  main_v34

def fn {F : FTy → Type} [FloatOps F] (main_arg0 : FVec F S262144x500 .f32) (main_arg1 : IVec S2x8388608 32) (main_arg2 : FVec F S500x8 .f32) (main_arg3 : FVec F S8 .f32) (main_arg4 : FVec F S8x3 .f32) (main_arg5 : FVec F S3 .f32) : IVec S_ 1 :=
  let main_v0 : FVec F S262144x500 .f32 := Host.absf main_arg0
  let main_cst : FVec F S_ .f32 := constant S_ .f32 0x7F800000#32
  let main_v1 : FVec F S262144x500 .f32 := broadcastInDim S262144x500 ![] bcast_S_S262144x500 main_cst
  let main_v2 : IVec S262144x500 1 := cmpf .olt main_v0 main_v1
  let main_c : IVec S_ 1 := constantI S_ 1 1#1
  let main_v3 : IVec S_ 1 := (fun x v => Host.reduce IntOp.andi x v reducesTo_S262144x500_S_d0_1 h_S_) main_v2 main_c
  let main_v4 : FVec F S500x8 .f32 := Host.absf main_arg2
  let main_cst_0 : FVec F S_ .f32 := constant S_ .f32 0x7F800000#32
  let main_v5 : FVec F S500x8 .f32 := broadcastInDim S500x8 ![] bcast_S_S500x8 main_cst_0
  let main_v6 : IVec S500x8 1 := cmpf .olt main_v4 main_v5
  let main_c_1 : IVec S_ 1 := constantI S_ 1 1#1
  let main_v7 : IVec S_ 1 := (fun x v => Host.reduce IntOp.andi x v reducesTo_S500x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x3 .f32 := Host.absf main_arg4
  let main_cst_4 : FVec F S_ .f32 := constant S_ .f32 0x7F800000#32
  let main_v15 : FVec F S8x3 .f32 := broadcastInDim S8x3 ![] bcast_S_S8x3 main_cst_4
  let main_v16 : IVec S8x3 1 := cmpf .olt main_v14 main_v15
  fn_part1 (F := F) main_arg1 main_arg5 main_v13 main_v16
-- ==== Kernel.lean ====
abbrev S262144x500 : Shape := ⟨2, ![262144, 500]⟩
abbrev S2x8388608 : Shape := ⟨2, ![2, 8388608]⟩
abbrev S500x8 : Shape := ⟨2, ![500, 8]⟩
abbrev S8 : Shape := ⟨1, ![8]⟩
abbrev S8x3 : Shape := ⟨2, ![8, 3]⟩
abbrev S3 : Shape := ⟨1, ![3]⟩
abbrev S1x8388608 : Shape := ⟨2, ![1, 8388608]⟩
abbrev S8388608 : Shape := ⟨1, ![8388608]⟩
abbrev S262144x8 : Shape := ⟨2, ![262144, 8]⟩
abbrev S_ : Shape := ⟨0, ![]⟩
abbrev S8388608x1 : Shape := ⟨2, ![8388608, 1]⟩
abbrev S1 : Shape := ⟨1, ![1]⟩
abbrev S1x1 : Shape := ⟨2, ![1, 1]⟩
abbrev S8388608x8 : Shape := ⟨2, ![8388608, 8]⟩
abbrev S1x8 : Shape := ⟨2, ![1, 8]⟩
abbrev S262144x3 : Shape := ⟨2, ![262144, 3]⟩
abbrev S8388608x3 : Shape := ⟨2, ![8388608, 3]⟩
abbrev S1x3 : Shape := ⟨2, ![1, 3]⟩
abbrev S4096x500 : Shape := ⟨2, ![4096, 500]⟩
abbrev S4096x8 : Shape := ⟨2, ![4096, 8]⟩
abbrev S8192x8 : Shape := ⟨2, ![8192, 8]⟩
abbrev S8192x3 : Shape := ⟨2, ![8192, 3]⟩

abbrev nBuf : Space → Nat
  | .hbm => 70
  | .vmem => 11
  | .smem => 0
  | _ => 0

abbrev bufTy : (tb : Table) → Fin (tcTables nBuf tb) → BufTy
  | .hbm, ⟨0, _⟩ => ⟨S262144x500, .f32⟩
  | .hbm, ⟨1, _⟩ => ⟨S2x8388608, .i32⟩
  | .hbm, ⟨2, _⟩ => ⟨S500x8, .f32⟩
  | .hbm, ⟨3, _⟩ => ⟨S8, .f32⟩
  | .hbm, ⟨4, _⟩ => ⟨S8x3, .f32⟩
  | .hbm, ⟨5, _⟩ => ⟨S3, .f32⟩
  | .hbm, ⟨6, _⟩ => ⟨S1x8388608, .i32⟩
  | .hbm, ⟨7, _⟩ => ⟨S8388608, .i32⟩
  | .hbm, ⟨8, _⟩ => ⟨S1x8388608, .i32⟩
  | .hbm, ⟨9, _⟩ => ⟨S8388608, .i32⟩
  | .hbm, ⟨10, _⟩ => ⟨S262144x8, .f32⟩
  | .hbm, ⟨11, _⟩ => ⟨S_, .i32⟩
  | .hbm, ⟨12, _⟩ => ⟨S8388608, .i32⟩
  | .hbm, ⟨13, _⟩ => ⟨S8388608, .i1⟩
  | .hbm, ⟨14, _⟩ => ⟨S_, .i32⟩
  | .hbm, ⟨15, _⟩ => ⟨S8388608, .i32⟩
  | .hbm, ⟨16, _⟩ => ⟨S8388608, .i32⟩
  | .hbm, ⟨17, _⟩ => ⟨S8388608, .i32⟩
  | .hbm, ⟨18, _⟩ => ⟨S8388608x1, .i32⟩
  | .hbm, ⟨19, _⟩ => ⟨S1, .i32⟩
  | .hbm, ⟨20, _⟩ => ⟨S_, .i32⟩
  | .hbm, ⟨21, _⟩ => ⟨S8388608x1, .i32⟩
  | .hbm, ⟨22, _⟩ => ⟨S8388608x1, .i1⟩
  | .hbm, ⟨23, _⟩ => ⟨S1x1, .i32⟩
  | .hbm, ⟨24, _⟩ => ⟨S8388608x1, .i32⟩
  | .hbm, ⟨25, _⟩ => ⟨S8388608x1, .i1⟩
  | .hbm, ⟨26, _⟩ => ⟨S8388608x1, .i1⟩
  | .hbm, ⟨27, _⟩ => ⟨S_, .i1⟩
  | .hbm, ⟨28, _⟩ => ⟨S8388608, .i1⟩
  | .hbm, ⟨29, _⟩ => ⟨S8388608x8, .f32⟩
  | .hbm, ⟨30, _⟩ => ⟨S8388608x8, .i1⟩
  | .hbm, ⟨31, _⟩ => ⟨S_, .f32⟩
  | .hbm, ⟨32, _⟩ => ⟨S8388608x8, .f32⟩
  | .hbm, ⟨33, _⟩ => ⟨S8388608x8, .f32⟩
  | .hbm, ⟨34, _⟩ => ⟨S_, .f32⟩
  | .hbm, ⟨35, _⟩ => ⟨S262144x8, .f32⟩
  | .hbm, ⟨36, _⟩ => ⟨S8388608x1, .i32⟩
  | .hbm, ⟨37, _⟩ => ⟨S262144x8, .f32⟩
  | .hbm, ⟨38, _⟩ => ⟨S1x8, .f32⟩
  | .hbm, ⟨39, _⟩ => ⟨S262144x3, .f32⟩
  | .hbm, ⟨40, _⟩ => ⟨S_, .i32⟩
  | .hbm, ⟨41, _⟩ => ⟨S8388608, .i32⟩
  | .hbm, ⟨42, _⟩ => ⟨S8388608, .i1⟩
  | .hbm, ⟨43, _⟩ => ⟨S_, .i32⟩
  | .hbm, ⟨44, _⟩ => ⟨S8388608, .i32⟩
  | .hbm, ⟨45, _⟩ => ⟨S8388608, .i32⟩
  | .hbm, ⟨46, _⟩ => ⟨S8388608, .i32⟩
  | .hbm, ⟨47, _⟩ => ⟨S8388608x1, .i32⟩
  | .hbm, ⟨48, _⟩ => ⟨S1, .i32⟩
  | .hbm, ⟨49, _⟩ => ⟨S_, .i32⟩
  | .hbm, ⟨50, _⟩ => ⟨S8388608x1, .i32⟩
  | .hbm, ⟨51, _⟩ => ⟨S8388608x1, .i1⟩
  | .hbm, ⟨52, _⟩ => ⟨S1x1, .i32⟩
  | .hbm, ⟨53, _⟩ => ⟨S8388608x1, .i32⟩
  | .hbm, ⟨54, _⟩ => ⟨S8388608x1, .i1⟩
  | .hbm, ⟨55, _⟩ => ⟨S8388608x1, .i1⟩
  | .hbm, ⟨56, _⟩ => ⟨S_, .i1⟩
  | .hbm, ⟨57, _⟩ => ⟨S8388608, .i1⟩
  | .hbm, ⟨58, _⟩ => ⟨S8388608x3, .f32⟩
  | .hbm, ⟨59, _⟩ => ⟨S8388608x3, .i1⟩
  | .hbm, ⟨60, _⟩ => ⟨S_, .f32⟩
  | .hbm, ⟨61, _⟩ => ⟨S8388608x3, .f32⟩
  | .hbm, ⟨62, _⟩ => ⟨S8388608x3, .f32⟩
  | .hbm, ⟨63, _⟩ => ⟨S_, .f32⟩
  | .hbm, ⟨64, _⟩ => ⟨S262144x3, .f32⟩
  | .hbm, ⟨65, _⟩ => ⟨S8388608x1, .i32⟩
  | .hbm, ⟨66, _⟩ => ⟨S262144x3, .f32⟩
  | .hbm, ⟨67, _⟩ => ⟨S1x3, .f32⟩
  | .hbm, ⟨68, _⟩ => ⟨S262144x3, .f32⟩
  | .hbm, ⟨69, _⟩ => ⟨S262144x3, .f32⟩
  | .local _ .vmem, ⟨0, _⟩ => ⟨S4096x500, .f32⟩
  | .local _ .vmem, ⟨1, _⟩ => ⟨S4096x500, .f32⟩
  | .local _ .vmem, ⟨2, _⟩ => ⟨S500x8, .f32⟩
  | .local _ .vmem, ⟨3, _⟩ => ⟨S4096x8, .f32⟩
  | .local _ .vmem, ⟨4, _⟩ => ⟨S4096x8, .f32⟩
  | .local _ .vmem, ⟨5, _⟩ => ⟨S8192x8, .f32⟩
  | .local _ .vmem, ⟨6, _⟩ => ⟨S8192x8, .f32⟩
  | .local _ .vmem, ⟨7, _⟩ => ⟨S1x8, .f32⟩
  | .local _ .vmem, ⟨8, _⟩ => ⟨S8x3, .f32⟩
  | .local _ .vmem, ⟨9, _⟩ => ⟨S8192x3, .f32⟩
  | .local _ .vmem, ⟨10, _⟩ => ⟨S8192x3, .f32⟩
  | _, _ => ⟨S262144x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_call0_c : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_c_0 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_c_1 : Ref sig .tc := ⟨.hbm, 19, rfl⟩
abbrev main_call0_call0_c_2 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_c_3 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_cst : Ref sig .tc := ⟨.hbm, 31, rfl⟩
abbrev main_call0_call0_v15 : Ref sig .tc := ⟨.hbm, 32, rfl⟩
abbrev main_call0_v5 : Ref sig .tc := ⟨.hbm, 33, rfl⟩
abbrev main_call0_cst : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_call1_c : Ref sig .tc := ⟨.hbm, 40, rfl⟩
abbrev main_call0_call1_v0 : Ref sig .tc := ⟨.hbm, 41, rfl⟩
abbrev main_call0_call1_v1 : Ref sig .tc := ⟨.hbm, 42, rfl⟩
abbrev main_call0_call1_c_0 : Ref sig .tc := ⟨.hbm, 43, rfl⟩
abbrev main_call0_call1_v2 : Ref sig .tc := ⟨.hbm, 44, rfl⟩
abbrev main_call0_call1_v3 : Ref sig .tc := ⟨.hbm, 45, rfl⟩
abbrev main_call0_call1_v4 : Ref sig .tc := ⟨.hbm, 46, rfl⟩
abbrev main_call0_call1_v5 : Ref sig .tc := ⟨.hbm, 47, rfl⟩
abbrev main_call0_call1_c_1 : Ref sig .tc := ⟨.hbm, 48, rfl⟩
abbrev main_call0_call1_c_2 : Ref sig .tc := ⟨.hbm, 49, rfl⟩
abbrev main_call0_call1_v6 : Ref sig .tc := ⟨.hbm, 50, rfl⟩
abbrev main_call0_call1_v7 : Ref sig .tc := ⟨.hbm, 51, rfl⟩
abbrev main_call0_call1_v8 : Ref sig .tc := ⟨.hbm, 52, rfl⟩
abbrev main_call0_call1_v9 : Ref sig .tc := ⟨.hbm, 53, rfl⟩
abbrev main_call0_call1_v10 : Ref sig .tc := ⟨.hbm, 54, rfl⟩
abbrev main_call0_call1_v11 : Ref sig .tc := ⟨.hbm, 55, rfl⟩
abbrev main_call0_call1_c_3 : Ref sig .tc := ⟨.hbm, 56, rfl⟩
abbrev main_call0_call1_v12 : Ref sig .tc := ⟨.hbm, 57, rfl⟩
abbrev main_call0_call1_v13 : Ref sig .tc := ⟨.hbm, 58, rfl⟩
abbrev main_call0_call1_v14 : Ref sig .tc := ⟨.hbm, 59, rfl⟩
abbrev main_call0_call1_cst : Ref sig .tc := ⟨.hbm, 60, rfl⟩
abbrev main_call0_call1_v15 : Ref sig .tc := ⟨.hbm, 61, rfl⟩
abbrev main_call0_v11 : Ref sig .tc := ⟨.hbm, 62, rfl⟩
abbrev main_call0_cst_0 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_v15 : Ref sig .tc := ⟨.hbm, 67, rfl⟩
abbrev main_call0_v16 : Ref sig .tc := ⟨.hbm, 68, rfl⟩
abbrev main_v0 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  reducesTo_S8388608x1_S8388608_d1 : S8388608x1.ReducesTo [1] S8388608
  h_S_ : 0 < S_.numel
  bcast_S8388608_S8388608x8_0 : S8388608.BroadcastsInDim S8388608x8 (![0] : Fin 1 → Fin S8388608x8.rank)
  bcast_S_S8388608x8 : S_.BroadcastsInDim S8388608x8 (![] : Fin 0 → Fin S8388608x8.rank)
  bcast_S_S262144x8 : S_.BroadcastsInDim S262144x8 (![] : Fin 0 → Fin S262144x8.rank)
  shapeCasts_S8_S1x8 : S8.ShapeCasts S1x8
  bcast_S8388608_S8388608x3_0 : S8388608.BroadcastsInDim S8388608x3 (![0] : Fin 1 → Fin S8388608x3.rank)
  bcast_S_S8388608x3 : S_.BroadcastsInDim S8388608x3 (![] : Fin 0 → Fin S8388608x3.rank)
  bcast_S_S262144x3 : S_.BroadcastsInDim S262144x3 (![] : Fin 0 → Fin S262144x3.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  inb_S4096x500_S4096x500_0_0 : ∀ a, (![0, 0] : Fin 2 → Nat) a + S4096x500.size a ≤ S4096x500.size a
  h_S4096x500 : 0 < S4096x500.numel
  bitsLt_bf16_f32 : FTy.bits .bf16 < FTy.bits .f32
  inb_S500x8_S500x8_0_0 : ∀ a, (![0, 0] : Fin 2 → Nat) a + S500x8.size a ≤ S500x8.size a
  h_S500x8 : 0 < S500x8.numel
  inb_S4096x8_S4096x8_0_0 : ∀ a, (![0, 0] : Fin 2 → Nat) a + S4096x8.size a ≤ S4096x8.size a
  h_S4096x8 : 0 < S4096x8.numel
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8192x8 : S1x8.Broadcasts S8192x8
  inb_S8x3_S8x3_0_0 : ∀ a, (![0, 0] : Fin 2 → Nat) a + S8x3.size a ≤ S8x3.size a
  h_S8x3 : 0 < S8x3.numel
  inb_S8192x3_S8192x3_0_0 : ∀ a, (![0, 0] : Fin 2 → Nat) a + S8192x3.size a ≤ S8192x3.size a
  h_S8192x3 : 0 < S8192x3.numel
  gather_S262144x8_S8388608x1_S8388608x8_1_0_n_n_0_1_18_wf : GatherDims.WF S262144x8 S8388608x1 S8388608x8 [1] [0] [] [0] [] 1 ![1, 8]
  scatter_S262144x8_S8388608x1_S8388608x8_1_0_0_1_wf : ScatterDims.WF S262144x8 S8388608x1 S8388608x8 [1] [0] [0] 1
  gather_S262144x3_S8388608x1_S8388608x3_1_0_n_n_0_1_13_wf : GatherDims.WF S262144x3 S8388608x1 S8388608x3 [1] [0] [] [0] [] 1 ![1, 3]
  scatter_S262144x3_S8388608x1_S8388608x3_1_0_0_1_wf : ScatterDims.WF S262144x3 S8388608x1 S8388608x3 [1] [0] [0] 1
  dot_S4096x500_S500x8_S4096x8_1_0_0_1_n_n_wf : DotDims.WF S4096x500 S500x8 S4096x8 [1] [0] [0] [1] [] []
  dot_S8192x8_S8x3_S8192x3_1_0_0_1_n_n_wf : DotDims.WF S8192x8 S8x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x500.size a ≤ S262144x500.size a
  hwx0_0 : ∀ i : grid0.Coords, EltTy.bits .f32 = 32 ∨ (Rect.block (s := S262144x500) S4096x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x8.size a ≤ S500x8.size a
  hwx0_1 : ∀ i : grid0.Coords, EltTy.bits .f32 = 32 ∨ (Rect.block (s := S500x8) S500x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S262144x8.size a
  hwx0_2 : ∀ i : grid0.Coords, EltTy.bits .f32 = 32 ∨ (Rect.block (s := S262144x8) S4096x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x8.size a ≤ S262144x8.size a
  hwx1_0 : ∀ i : grid1.Coords, EltTy.bits .f32 = 32 ∨ (Rect.block (s := S262144x8) S8192x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8.size a ≤ S1x8.size a
  hwx1_1 : ∀ i : grid1.Coords, EltTy.bits .f32 = 32 ∨ (Rect.block (s := S1x8) S1x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x3.size a ≤ S8x3.size a
  hwx1_2 : ∀ i : grid1.Coords, EltTy.bits .f32 = 32 ∨ (Rect.block (s := S8x3) S8x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x3.size a ≤ S262144x3.size a
  hwx1_3 : ∀ i : grid1.Coords, EltTy.bits .f32 = 32 ∨ (Rect.block (s := S262144x3) S8192x3.size (cc1_transform_3 i) (hinb1_3 i)).WholeWords (EltTy.packing .f32)

variable [Facts₀]

def gather_S262144x8_S8388608x1_S8388608x8_1_0_n_n_0_1_18 : GatherDims S262144x8 S8388608x1 S8388608x8 where
  offsetDims := [1]
  collapsedSliceDims := [0]
  operandBatchingDims := []
  startIndicesBatchingDims := []
  startIndexMap := [0]
  indexVectorDim := 1
  sliceSizes := ![1, 8]
  wf := gather_S262144x8_S8388608x1_S8388608x8_1_0_n_n_0_1_18_wf
def scatter_S262144x8_S8388608x1_S8388608x8_1_0_0_1 : ScatterDims S262144x8 S8388608x1 S8388608x8 where
  updateWindowDims := [1]
  insertedWindowDims := [0]
  scatterDimsToOperandDims := [0]
  indexVectorDim := 1
  wf := scatter_S262144x8_S8388608x1_S8388608x8_1_0_0_1_wf
def gather_S262144x3_S8388608x1_S8388608x3_1_0_n_n_0_1_13 : GatherDims S262144x3 S8388608x1 S8388608x3 where
  offsetDims := [1]
  collapsedSliceDims := [0]
  operandBatchingDims := []
  startIndicesBatchingDims := []
  startIndexMap := [0]
  indexVectorDim := 1
  sliceSizes := ![1, 3]
  wf := gather_S262144x3_S8388608x1_S8388608x3_1_0_n_n_0_1_13_wf
def scatter_S262144x3_S8388608x1_S8388608x3_1_0_0_1 : ScatterDims S262144x3 S8388608x1 S8388608x3 where
  updateWindowDims := [1]
  insertedWindowDims := [0]
  scatterDimsToOperandDims := [0]
  indexVectorDim := 1
  wf := scatter_S262144x3_S8388608x1_S8388608x3_1_0_0_1_wf
def dot_S4096x500_S500x8_S4096x8_1_0_0_1_n_n : DotDims S4096x500 S500x8 S4096x8 where
  lhsContracting := [1]
  rhsContracting := [0]
  lhsNonContracting := [0]
  rhsNonContracting := [1]
  lhsBatch := []
  rhsBatch := []
  wf := dot_S4096x500_S500x8_S4096x8_1_0_0_1_n_n_wf
def dot_S8192x8_S8x3_S8192x3_1_0_0_1_n_n : DotDims S8192x8 S8x3 S8192x3 where
  lhsContracting := [1]
  rhsContracting := [0]
  lhsNonContracting := [0]
  rhsNonContracting := [1]
  lhsBatch := []
  rhsBatch := []
  wf := dot_S8192x8_S8x3_S8192x3_1_0_0_1_n_n_wf

abbrev win0_0 : Pipeline.Window sig grid0 :=
  Pipeline.Window.ofSpec (Memref.whole main_arg0) S4096x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S4096x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v8) S8192x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v9) S1x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S8x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v10) S8192x3.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x500 : Shape := ⟨2, ![262144, 500]⟩
abbrev S2x8388608 : Shape := ⟨2, ![2, 8388608]⟩
abbrev S500x8 : Shape := ⟨2, ![500, 8]⟩
abbrev S8 : Shape := ⟨1, ![8]⟩
abbrev S8x3 : Shape := ⟨2, ![8, 3]⟩
abbrev S3 : Shape := ⟨1, ![3]⟩
abbrev S262144x8 : Shape := ⟨2, ![262144, 8]⟩
abbrev S1x8388608 : Shape := ⟨2, ![1, 8388608]⟩
abbrev S8388608 : Shape := ⟨1, ![8388608]⟩
abbrev S_ : Shape := ⟨0, ![]⟩
abbrev S8388608x1 : Shape := ⟨2, ![8388608, 1]⟩
abbrev S8388608x8 : Shape := ⟨2, ![8388608, 8]⟩
abbrev S1x8 : Shape := ⟨2, ![1, 8]⟩
abbrev S262144x3 : Shape := ⟨2, ![262144, 3]⟩
abbrev S8388608x3 : Shape := ⟨2, ![8388608, 3]⟩
abbrev S1x3 : Shape := ⟨2, ![1, 3]⟩

abbrev nBuf : Space → Nat
  | .hbm => 51
  | .vmem => 0
  | .smem => 0
  | _ => 0

abbrev bufTy : (tb : Table) → Fin (tcTables nBuf tb) → BufTy
  | .hbm, ⟨0, _⟩ => ⟨S262144x500, .f32⟩
  | .hbm, ⟨1, _⟩ => ⟨S2x8388608, .i32⟩
  | .hbm, ⟨2, _⟩ => ⟨S500x8, .f32⟩
  | .hbm, ⟨3, _⟩ => ⟨S8, .f32⟩
  | .hbm, ⟨4, _⟩ => ⟨S8x3, .f32⟩
  | .hbm, ⟨5, _⟩ => ⟨S3, .f32⟩
  | .hbm, ⟨6, _⟩ => ⟨S262144x8, .f32⟩
  | .hbm, ⟨7, _⟩ => ⟨S1x8388608, .i32⟩
  | .hbm, ⟨8, _⟩ => ⟨S8388608, .i32⟩
  | .hbm, ⟨9, _⟩ => ⟨S1x8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i1⟩
  | .hbm, ⟨14, _⟩ => ⟨S_, .i32⟩
  | .hbm, ⟨15, _⟩ => ⟨S8388608, .i32⟩
  | .hbm, ⟨16, _⟩ => ⟨S8388608, .i32⟩
  | .hbm, ⟨17, _⟩ => ⟨S8388608, .i32⟩
  | .hbm, ⟨18, _⟩ => ⟨S8388608x1, .i32⟩
  | .hbm, ⟨19, _⟩ => ⟨S8388608x8, .f32⟩
  | .hbm, ⟨20, _⟩ => ⟨S_, .f32⟩
  | .hbm, ⟨21, _⟩ => ⟨S262144x8, .f32⟩
  | .hbm, ⟨22, _⟩ => ⟨S8388608x1, .i32⟩
  | .hbm, ⟨23, _⟩ => ⟨S262144x8, .f32⟩
  | .hbm, ⟨24, _⟩ => ⟨S1x8, .f32⟩
  | .hbm, ⟨25, _⟩ => ⟨S262144x8, .f32⟩
  | .hbm, ⟨26, _⟩ => ⟨S262144x8, .f32⟩
  | .hbm, ⟨27, _⟩ => ⟨S_, .f32⟩
  | .hbm, ⟨28, _⟩ => ⟨S262144x8, .f32⟩
  | .hbm, ⟨29, _⟩ => ⟨S262144x8, .f32⟩
  | .hbm, ⟨30, _⟩ => ⟨S262144x3, .f32⟩
  | .hbm, ⟨31, _⟩ => ⟨S1x8388608, .i32⟩
  | .hbm, ⟨32, _⟩ => ⟨S8388608, .i32⟩
  | .hbm, ⟨33, _⟩ => ⟨S1x8388608, .i32⟩
  | .hbm, ⟨34, _⟩ => ⟨S8388608, .i32⟩
  | .hbm, ⟨35, _⟩ => ⟨S_, .i32⟩
  | .hbm, ⟨36, _⟩ => ⟨S8388608, .i32⟩
  | .hbm, ⟨37, _⟩ => ⟨S8388608, .i1⟩
  | .hbm, ⟨38, _⟩ => ⟨S_, .i32⟩
  | .hbm, ⟨39, _⟩ => ⟨S8388608, .i32⟩
  | .hbm, ⟨40, _⟩ => ⟨S8388608, .i32⟩
  | .hbm, ⟨41, _⟩ => ⟨S8388608, .i32⟩
  | .hbm, ⟨42, _⟩ => ⟨S8388608x1, .i32⟩
  | .hbm, ⟨43, _⟩ => ⟨S8388608x3, .f32⟩
  | .hbm, ⟨44, _⟩ => ⟨S_, .f32⟩
  | .hbm, ⟨45, _⟩ => ⟨S262144x3, .f32⟩
  | .hbm, ⟨46, _⟩ => ⟨S8388608x1, .i32⟩
  | .hbm, ⟨47, _⟩ => ⟨S262144x3, .f32⟩
  | .hbm, ⟨48, _⟩ => ⟨S1x3, .f32⟩
  | .hbm, ⟨49, _⟩ => ⟨S262144x3, .f32⟩
  | .hbm, ⟨50, _⟩ => ⟨S262144x3, .f32⟩
  | _, _ => ⟨S262144x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S262144x8 : S_.BroadcastsInDim S262144x8 (![] : Fin 0 → Fin S262144x8.rank)
  bcast_S8_S1x8_1 : S8.BroadcastsInDim S1x8 (![1] : Fin 1 → Fin S1x8.rank)
  bcast_S1x8_S262144x8_0_1 : S1x8.BroadcastsInDim S262144x8 (![0, 1] : Fin 2 → Fin S262144x8.rank)
  bcast_S_S262144x3 : S_.BroadcastsInDim S262144x3 (![] : Fin 0 → Fin S262144x3.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  dot_S262144x500_S500x8_S262144x8_1_0_0_1_n_n_wf : DotDims.WF S262144x500 S500x8 S262144x8 [1] [0] [0] [1] [] []
  gather_S262144x8_S8388608x1_S8388608x8_1_0_n_n_0_1_18_wf : GatherDims.WF S262144x8 S8388608x1 S8388608x8 [1] [0] [] [0] [] 1 ![1, 8]
  scatter_S262144x8_S8388608x1_S8388608x8_1_0_0_1_wf : ScatterDims.WF S262144x8 S8388608x1 S8388608x8 [1] [0] [0] 1
  dot_S262144x8_S8x3_S262144x3_1_0_0_1_n_n_wf : DotDims.WF S262144x8 S8x3 S262144x3 [1] [0] [0] [1] [] []
  gather_S262144x3_S8388608x1_S8388608x3_1_0_n_n_0_1_13_wf : GatherDims.WF S262144x3 S8388608x1 S8388608x3 [1] [0] [] [0] [] 1 ![1, 3]
  scatter_S262144x3_S8388608x1_S8388608x3_1_0_0_1_wf : ScatterDims.WF S262144x3 S8388608x1 S8388608x3 [1] [0] [0] 1

variable [Facts₀]

def dot_S262144x500_S500x8_S262144x8_1_0_0_1_n_n : DotDims S262144x500 S500x8 S262144x8 where
  lhsContracting := [1]
  rhsContracting := [0]
  lhsNonContracting := [0]
  rhsNonContracting := [1]
  lhsBatch := []
  rhsBatch := []
  wf := dot_S262144x500_S500x8_S262144x8_1_0_0_1_n_n_wf
def gather_S262144x8_S8388608x1_S8388608x8_1_0_n_n_0_1_18 : GatherDims S262144x8 S8388608x1 S8388608x8 where
  offsetDims := [1]
  collapsedSliceDims := [0]
  operandBatchingDims := []
  startIndicesBatchingDims := []
  startIndexMap := [0]
  indexVectorDim := 1
  sliceSizes := ![1, 8]
  wf := gather_S262144x8_S8388608x1_S8388608x8_1_0_n_n_0_1_18_wf
def scatter_S262144x8_S8388608x1_S8388608x8_1_0_0_1 : ScatterDims S262144x8 S8388608x1 S8388608x8 where
  updateWindowDims := [1]
  insertedWindowDims := [0]
  scatterDimsToOperandDims := [0]
  indexVectorDim := 1
  wf := scatter_S262144x8_S8388608x1_S8388608x8_1_0_0_1_wf
def dot_S262144x8_S8x3_S262144x3_1_0_0_1_n_n : DotDims S262144x8 S8x3 S262144x3 where
  lhsContracting := [1]
  rhsContracting := [0]
  lhsNonContracting := [0]
  rhsNonContracting := [1]
  lhsBatch := []
  rhsBatch := []
  wf := dot_S262144x8_S8x3_S262144x3_1_0_0_1_n_n_wf
def gather_S262144x3_S8388608x1_S8388608x3_1_0_n_n_0_1_13 : GatherDims S262144x3 S8388608x1 S8388608x3 where
  offsetDims := [1]
  collapsedSliceDims := [0]
  operandBatchingDims := []
  startIndicesBatchingDims := []
  startIndexMap := [0]
  indexVectorDim := 1
  sliceSizes := ![1, 3]
  wf := gather_S262144x3_S8388608x1_S8388608x3_1_0_n_n_0_1_13_wf
def scatter_S262144x3_S8388608x1_S8388608x3_1_0_0_1 : ScatterDims S262144x3 S8388608x1 S8388608x3 where
  updateWindowDims := [1]
  insertedWindowDims := [0]
  scatterDimsToOperandDims := [0]
  indexVectorDim := 1
  wf := scatter_S262144x3_S8388608x1_S8388608x3_1_0_0_1_wf

class Facts : Prop extends Facts₀ where

variable [Facts]
-- ==== Proof.Spec.lean ====
/-
  The two dense layers of the graph convolution as functions of whole arrays, index by index, on the extended reals.
  Layer 1 multiplies the node features by the first weight matrix: entry (r, j) is the sum over the 500 input
  features k of x[r, k] * W1[k, j]. Layer 2 first adds the bias row to the aggregated hidden features and clips
  at zero (the ReLU), then multiplies by the second weight matrix: entry (r, j) is the sum over the 8 hidden
  features k of max(agg[r, k] + b[0, k], 0) * W2[k, j]. The order of a finite sum of extended reals does not
  matter, so neither formula depends on how the rows are tiled.
-/
import Idealize.ShloMosaic.PureOps.Ideal
import Idealize.ShloMosaic.Lib.ValueIdx

noncomputable section

open scoped BigOperators

namespace Cert.Gcn

open Idealize.ShloMosaic Idealize.ShloMosaic.ValueIdx

/-- Layer 1's dense product: out[r, j] = sum over k of x[r, k] * w[k, j]. -/
def dense1 (x : FVec Ideal ⟨2, ![262144, 500]⟩ .f32) (w : FVec Ideal ⟨2, ![500, 8]⟩ .f32) :
    FVec Ideal ⟨2, ![262144, 8]⟩ .f32 :=
  fun i => ∑ k : Fin 500, x (ix2 (⟨(i 0).val, idx2_lt0 i⟩ : Fin 262144) k) * w (ix2 k (⟨(i 1).val, idx2_lt1 i⟩ : Fin 8))

/-- Layer 2's biased, clipped dense product: out[r, j] = sum over k of max(agg[r, k] + b[0, k], 0) * w[k, j]. -/
def dense2 (agg : FVec Ideal ⟨2, ![262144, 8]⟩ .f32) (b : FVec Ideal ⟨2, ![1, 8]⟩ .f32) (w : FVec Ideal ⟨2, ![8, 3]⟩ .f32) :
    FVec Ideal ⟨2, ![262144, 3]⟩ .f32 :=
  fun i => ∑ k : Fin 8,
    max (agg (ix2 (⟨(i 0).val, idx2_lt0 i⟩ : Fin 262144) k) + b (ix2 (0 : Fin 1) k)) (Ideal.ofBits .f32 0x00000000#32)
      * w (ix2 k (⟨(i 1).val, idx2_lt1 i⟩ : Fin 3))

end Cert.Gcn

end
-- ==== Proof.HostFns.lean ====
/-
  The host side of the kernel program as named functions. Between its two tiled matrix products the program takes the
  two rows of the edge list (sources, destinations), turns a negative source index into one counted from the end, tests
  per edge whether the index is a row of the table, looks the rows up (a fill word where the test fails), and sums the
  looked-up rows into their destination nodes. Each of these is one function here, and the whole program is their
  composition around the two dense layers.
-/
import proofs.«425367_j63144609185882_3_alg».proof.Proof.Gen.KernelIdeal

noncomputable section

namespace Cert.KernelIdeal.Chain

open Cert.KernelIdeal Cert.KernelIdeal.Gen Idealize.ShloMosaic

variable {F : FTy → Type} [FloatOps F]

/-- Row 0 of the edge list: the source node of every edge. -/
def srcRow (e : IVec S2x8388608 32) : IVec S8388608 32 :=
  shapeCast S8388608 (extractStridedSlice S1x8388608 ![0, 0] e slices_S2x8388608_S1x8388608_0_0) shapeCasts_S1x8388608_S8388608

/-- Row 1 of the edge list: the destination node of every edge. -/
def dstRow (e : IVec S2x8388608 32) : IVec S8388608 32 :=
  shapeCast S8388608 (extractStridedSlice S1x8388608 ![1, 0] e slices_S2x8388608_S1x8388608_1_0) shapeCasts_S1x8388608_S8388608

/-- A negative index counts from the end: add the number of nodes to it; then lay the indices out as a column. -/
def wrapIdx (s : IVec S8388608 32) : IVec S8388608x1 32 :=
  broadcastInDim S8388608x1 ![0] bcast_S8388608_S8388608x1_0
    (select (cmpi .slt s (broadcastInDim S8388608 ![] bcast_S_S8388608 (constantI S_ 32 0#32)))
      (addi s (broadcastInDim S8388608 ![] bcast_S_S8388608 (constantI S_ 32 262144#32))) s)

/-- Per edge: is the wrapped index a row of the table, 0 ≤ index ≤ 262143? -/
def inBounds (ix : IVec S8388608x1 32) : IVec S8388608 1 :=
  Host.reduce IntOp.andi
    (andi (cmpi .sge ix (broadcastInDim S8388608x1 ![] bcast_S_S8388608x1 (constantI S_ 32 0#32)))
      (cmpi .sle ix (broadcastInDim S8388608x1 ![0, 1] bcast_S1x1_S8388608x1_0_1 (broadcastInDim S1x1 ![1] bcast_S1_S1x1_1 (constantI S1 32 262143#32)))))
    (constantI S_ 1 1#1) reducesTo_S8388608x1_S8388608_d1 h_S_

/-- The kernel program's row lookup into the 8-column table: where the wrapped index is a row of the table, that row;
    elsewhere a fill word. -/
def take8 (sup : FVec F S262144x8 .f32) (s : IVec S8388608 32) : FVec F S8388608x8 .f32 :=
  select (broadcastInDim S8388608x8 ![0] bcast_S8388608_S8388608x8_0 (inBounds (wrapIdx s)))
    (Host.gather gather_S262144x8_S8388608x1_S8388608x8_1_0_n_n_0_1_18 sup (wrapIdx s))
    (broadcastInDim S8388608x8 ![] bcast_S_S8388608x8 (constant S_ .f32 0x7FC00000#32))

/-- The same lookup into the 3-column table. -/
def take3 (sup : FVec F S262144x3 .f32) (s : IVec S8388608 32) : FVec F S8388608x3 .f32 :=
  select (broadcastInDim S8388608x3 ![0] bcast_S8388608_S8388608x3_0 (inBounds (wrapIdx s)))
    (Host.gather gather_S262144x3_S8388608x1_S8388608x3_1_0_n_n_0_1_13 sup (wrapIdx s))
    (broadcastInDim S8388608x3 ![] bcast_S_S8388608x3 (constant S_ .f32 0x7FC00000#32))

/-- Sum the edges' 8-column rows into their destination nodes, from zero. -/
def segsum8 (g : FVec F S8388608x8 .f32) (d : IVec S8388608 32) : FVec F S262144x8 .f32 :=
  Host.scatterAdd scatter_S262144x8_S8388608x1_S8388608x8_1_0_0_1
    (broadcastInDim S262144x8 ![] bcast_S_S262144x8 (constant S_ .f32 0x00000000#32))
    (broadcastInDim S8388608x1 ![0] bcast_S8388608_S8388608x1_0 d) g

/-- Sum the edges' 3-column rows into their destination nodes, from zero. -/
def segsum3 (g : FVec F S8388608x3 .f32) (d : IVec S8388608 32) : FVec F S262144x3 .f32 :=
  Host.scatterAdd scatter_S262144x3_S8388608x1_S8388608x3_1_0_0_1
    (broadcastInDim S262144x3 ![] bcast_S_S262144x3 (constant S_ .f32 0x00000000#32))
    (broadcastInDim S8388608x1 ![0] bcast_S8388608_S8388608x1_0 d) g

/-- The output bias as a row, repeated down the nodes. -/
def biasRows3 (b : FVec F S3 .f32) : FVec F S262144x3 .f32 :=
  broadcastInDim S262144x3 ![0, 1] bcast_S1x3_S262144x3_0_1 (broadcastInDim S1x3 ![1] bcast_S3_S1x3_1 b)

/-- The whole program's result as one function of its arguments, given the two dense layers `d1`, `d2`:
    layer 1, look up by source, sum by destination; layer 2 (with the hidden bias as a 1×8 row), look up, sum; add the
    output bias. -/
def program (d1 : FVec F S262144x500 .f32 → FVec F S500x8 .f32 → FVec F S262144x8 .f32)
    (d2 : FVec F S262144x8 .f32 → FVec F S1x8 .f32 → FVec F S8x3 .f32 → FVec F S262144x3 .f32)
    (x : FVec F S262144x500 .f32) (e : IVec S2x8388608 32) (w1 : FVec F S500x8 .f32) (b1 : FVec F S8 .f32)
    (w2 : FVec F S8x3 .f32) (b2 : FVec F S3 .f32) : FVec F S262144x3 .f32 :=
  addf (segsum3 (take3 (d2 (segsum8 (take8 (d1 x w1) (srcRow e)) (dstRow e)) (shapeCast S1x8 b1 shapeCasts_S8_S1x8) w2) (srcRow e)) (dstRow e))
    (biasRows3 b2)

end Cert.KernelIdeal.Chain

end
-- ==== Proof.LibHostLine.lean ====
/- A straight line of host operations run against a list of known buffer contents.

   `Sat V L`: the valuation `V` holds every buffer listed in `L` at the contents listed beside it. Each builder of
   Lib/StableHlo.lean has a step lemma here: when `L` lists the operation's operands, and no listed buffer is the
   operation's result buffer, the valuation after the operation satisfies `L` extended by the result buffer at the
   operation's function of the operands' listed contents. Running the steps down a literal list of operations
   (`StableHlo.after`) therefore never composes the functions: every listed value is a name, and each step checks
   one defining equation. The goals have the shape `∀ V, Sat V L → Sat (after ops V) Lout`; a step lemma peels the
   first operation of `ops`, and `done` closes the empty line by picking `Lout` out of `L` by position. -/
import Idealize.ShloMosaic.Lib.StableHlo.Run
import Idealize.ShloMosaic.Lib.Pipeline.Frame

namespace HostLine

open Idealize.ShloMosaic Idealize.ShloMosaic.StableHlo Idealize.SL.Sem

variable {τ : Topo} {sig : RefSig} {Val : EltTy → Type}

/-- A TensorCore buffer together with contents of its type. -/
abbrev Fact (sig : RefSig) (Val : EltTy → Type) : Type := (b : Ref sig .tc) × b.ty.Contents Val

/-- The valuation holds every listed buffer at its listed contents. -/
def Sat (V : Valuation τ sig Val) (L : List (Fact sig Val)) : Prop :=
  ∀ p ∈ L, V (Proc.devRef (τ := τ) .tc p.1) = p.2

theorem Sat.nil (V : Valuation τ sig Val) : Sat V [] := fun _ hp => nomatch hp

theorem Sat.cons {V : Valuation τ sig Val} {L : List (Fact sig Val)} {b : Ref sig .tc} {v : b.ty.Contents Val}
    (hb : V (Proc.devRef (τ := τ) .tc b) = v) (h : Sat V L) : Sat V (⟨b, v⟩ :: L) := by
  intro p hp
  rcases List.mem_cons.1 hp with rfl | hp
  · exact hb
  · exact h p hp

/-- Reading a listed buffer by its position in the list. -/
theorem Sat.get {V : Valuation τ sig Val} {L : List (Fact sig Val)} (h : Sat V L) (i : Nat) {b : Ref sig .tc}
    {v : b.ty.Contents Val} (hi : L[i]? = some ⟨b, v⟩) : V (Proc.devRef (τ := τ) .tc b) = v :=
  h ⟨b, v⟩ (List.mem_of_getElem? hi)

/-- The empty line: what is asked for is picked out of what is known, by position. -/
theorem done {L Lout : List (Fact sig Val)} (idx : List Nat) (h : idx.filterMap (fun i => L[i]?) = Lout) :
    ∀ V : Valuation τ sig Val, Sat V L → Sat (after [] V) Lout := by
  intro V hV p hp
  subst h
  obtain ⟨i, _, hi⟩ := List.mem_filterMap.1 hp
  exact hV p (List.mem_of_getElem? hi)

/-- One operation, whatever its builder: its result buffer `y` is new to the list, it leaves `y` at `vy` from any
    valuation that satisfies the list, and it leaves every other TensorCore buffer alone. -/
theorem step {op : HloOp τ sig Val} {y : Ref sig .tc} {L Lout : List (Fact sig Val)} {rest : List (HloOp τ sig Val)}
    (vy : y.ty.Contents Val)
    (hres : ∀ V : Valuation τ sig Val, Sat V L → op.result V (Proc.devRef .tc y) = vy)
    (hne : ∀ (V : Valuation τ sig Val) (r : Ref sig .tc), r ≠ y → op.result V (Proc.devRef .tc r) = V (Proc.devRef .tc r))
    (hfr : (L.all fun p => decide (p.1 ≠ y)) = true)
    (k : ∀ V : Valuation τ sig Val, Sat V (⟨y, vy⟩ :: L) → Sat (after rest V) Lout) :
    ∀ V : Valuation τ sig Val, Sat V L → Sat (after (op :: rest) V) Lout := by
  intro V h
  rw [after_cons]
  refine k _ (Sat.cons (hres V h) ?_)
  intro p hp
  rw [hne V p.1 (of_decide_eq_true (List.all_eq_true.1 hfr p hp))]
  exact h p hp

section Builders

variable {L Lout : List (Fact sig Val)} {rest : List (HloOp τ sig Val)}

theorem step_nullary {y : Ref sig .tc} {v : y.ty.Contents Val} {hy}
    (vy : y.ty.Contents Val) (hv : vy = v) (hfr : (L.all fun p => decide (p.1 ≠ y)) = true)
    (k : ∀ V : Valuation τ sig Val, Sat V (⟨y, vy⟩ :: L) → Sat (after rest V) Lout) :
    ∀ V : Valuation τ sig Val, Sat V L → Sat (after (nullary y v hy :: rest) V) Lout :=
  step vy (fun V _ => (nullary_result y v hy V).trans hv.symm) (fun V _ hr => nullary_result_ne y v hy V hr) hfr k

theorem step_unary {x y : Ref sig .tc} {f : x.ty.Contents Val → y.ty.Contents Val} {hx hy}
    (i : Nat) (vx : x.ty.Contents Val) (vy : y.ty.Contents Val) (hi : L[i]? = some ⟨x, vx⟩) (hv : vy = f vx)
    (hfr : (L.all fun p => decide (p.1 ≠ y)) = true)
    (k : ∀ V : Valuation τ sig Val, Sat V (⟨y, vy⟩ :: L) → Sat (after rest V) Lout) :
    ∀ V : Valuation τ sig Val, Sat V L → Sat (after (unary x y f hx hy :: rest) V) Lout :=
  step vy (fun V h => by rw [unary_result, h.get i hi, hv]) (fun V _ hr => unary_result_ne x y f hx hy V hr) hfr k

theorem step_binary {a b y : Ref sig .tc} {f : a.ty.Contents Val → b.ty.Contents Val → y.ty.Contents Val} {ha hb hy}
    (i j : Nat) (va : a.ty.Contents Val) (vb : b.ty.Contents Val) (vy : y.ty.Contents Val)
    (hi : L[i]? = some ⟨a, va⟩) (hj : L[j]? = some ⟨b, vb⟩) (hv : vy = f va vb)
    (hfr : (L.all fun p => decide (p.1 ≠ y)) = true)
    (k : ∀ V : Valuation τ sig Val, Sat V (⟨y, vy⟩ :: L) → Sat (after rest V) Lout) :
    ∀ V : Valuation τ sig Val, Sat V L → Sat (after (binary a b y f ha hb hy :: rest) V) Lout :=
  step vy (fun V h => by rw [binary_result, h.get i hi, h.get j hj, hv])
    (fun V _ hr => binary_result_ne a b y f ha hb hy V hr) hfr k

theorem step_reshape {x y : Ref sig .tc} {he : x.ty.elt = y.ty.elt} {hn : x.ty.shape.ShapeCasts y.ty.shape} {hx hy}
    (i : Nat) (vx : x.ty.Contents Val) (vy : y.ty.Contents Val) (hi : L[i]? = some ⟨x, vx⟩)
    (hv : vy = fun i => he ▸ shapeCast y.ty.shape vx hn i)
    (hfr : (L.all fun p => decide (p.1 ≠ y)) = true)
    (k : ∀ V : Valuation τ sig Val, Sat V (⟨y, vy⟩ :: L) → Sat (after rest V) Lout) :
    ∀ V : Valuation τ sig Val, Sat V L → Sat (after (reshape x y he hn hx hy :: rest) V) Lout :=
  step vy (fun V h => by rw [reshape_result, h.get i hi, hv])
    (fun V _ hr => reshape_result_ne x y he hn hx hy V hr) hfr k

/-- An operation of any number of operands: its value is read under an arbitrary valuation that satisfies the list. -/
theorem step_nary {n : Nat} {xs : Fin n → Ref sig .tc} {y : Ref sig .tc}
    {f : ((k : Fin n) → (xs k).ty.Contents Val) → y.ty.Contents Val} {hxs hy}
    (vy : y.ty.Contents Val)
    (hv : ∀ V : Valuation τ sig Val, Sat V L → f (fun k => V (Proc.devRef .tc (xs k))) = vy)
    (hfr : (L.all fun p => decide (p.1 ≠ y)) = true)
    (k : ∀ V : Valuation τ sig Val, Sat V (⟨y, vy⟩ :: L) → Sat (after rest V) Lout) :
    ∀ V : Valuation τ sig Val, Sat V L → Sat (after (nary xs y f hxs hy :: rest) V) Lout :=
  step vy (fun V h => (nary_result xs y f hxs hy V).trans (hv V h))
    (fun V _ hr => nary_result_ne (y := y) xs f hxs hy V hr) hfr k

end Builders

end HostLine
-- ==== Proof.LibHostLine3.lean ====
/- Steps of a host line (LibHostLine.lean) for the builders that file has no step for: an operation of three operands
   (`ternary`: a select, a scatter-add), and the typed-reference forms (`TRef.nullary`, `TRef.unary`, `TRef.binary`,
   `TRef.ternary`) in which a module-local function's body is stated, and which a call of that function therefore leaves
   in its caller's line once the body is unfolded at the call site; and the join of two stretches of a line (`line_append`).

   A typed reference `x : TRef sig T` carries its buffer `x.ref` and the equation `x.ty_eq : x.ref.ty = T`; its operation
   reads and writes the buffers through the transports `x.ofBuf` / `x.toBuf` along that equation. The steps below state
   the listed contents of an operand as `x.toBuf vx` for a `vx` at the value's own type `T`, and the result as
   `y.toBuf (f vx)`: the two transports of an operand cancel (`ofBuf_toBuf`), whatever the equation is. At a literal
   reference, whose equation is `rfl`, `x.toBuf vx` is `vx` by computation, so a use site lists plain contents. -/
import proofs.«425367_j63144609185882_3_alg».proof.Proof.LibHostLine

namespace HostLine

open Idealize.ShloMosaic Idealize.ShloMosaic.StableHlo Idealize.SL.Sem

variable {τ : Topo} {sig : RefSig} {Val : EltTy → Type}

/-- Transporting contents to a typed reference's buffer type and back is the identity. -/
theorem ofBuf_toBuf {T : BufTy} (x : TRef sig T) (v : T.Contents Val) : x.ofBuf (x.toBuf v) = v := by
  obtain ⟨ref, ty_eq, on_device, unscoped⟩ := x
  subst ty_eq
  rfl

/-- Two stretches in a row: what the first ends holding is what the second starts from. -/
theorem line_append {l₁ l₂ : List (HloOp τ sig Val)} {L M N : List (Fact sig Val)}
    (h₁ : ∀ V : Valuation τ sig Val, Sat V L → Sat (after l₁ V) M)
    (h₂ : ∀ V : Valuation τ sig Val, Sat V M → Sat (after l₂ V) N) :
    ∀ V : Valuation τ sig Val, Sat V L → Sat (after (l₁ ++ l₂) V) N := fun V h => by
  rw [StableHlo.after_append]
  exact h₂ _ (h₁ V h)

section Builders

variable {L Lout : List (Fact sig Val)} {rest : List (HloOp τ sig Val)}

/-- An operation of three operands: the list holds each operand (by position), the result buffer is new to the list,
    and the listed result is the operation's function of the three listed contents. -/
theorem step_ternary {c a b y : Ref sig .tc}
    {f : c.ty.Contents Val → a.ty.Contents Val → b.ty.Contents Val → y.ty.Contents Val} {hc ha hb hy}
    (i j l : Nat) (vc : c.ty.Contents Val) (va : a.ty.Contents Val) (vb : b.ty.Contents Val) (vy : y.ty.Contents Val)
    (hi : L[i]? = some ⟨c, vc⟩) (hj : L[j]? = some ⟨a, va⟩) (hl : L[l]? = some ⟨b, vb⟩) (hv : vy = f vc va vb)
    (hfr : (L.all fun p => decide (p.1 ≠ y)) = true)
    (k : ∀ V : Valuation τ sig Val, Sat V (⟨y, vy⟩ :: L) → Sat (after rest V) Lout) :
    ∀ V : Valuation τ sig Val, Sat V L → Sat (after (ternary c a b y f hc ha hb hy :: rest) V) Lout :=
  step vy (fun V h => by rw [ternary_result, h.get i hi, h.get j hj, h.get l hl, hv])
    (fun V _ hr => ternary_result_ne (a := a) (b := b) (c := c) (y := y) f hc ha hb hy V hr) hfr k

variable {Tx Ta Tb Tc Ty : BufTy}

/-- A typed-reference operation of no operand. -/
theorem step_tnullary {y : TRef sig Ty} {v : Ty.Contents Val}
    (vy : y.ref.ty.Contents Val) (hv : vy = y.toBuf v) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.nullary y v :: rest) V) Lout :=
  step_nullary vy hv hfr k

/-- A typed-reference operation of one operand. -/
theorem step_tunary {x : TRef sig Tx} {y : TRef sig Ty} {f : Tx.Contents Val → Ty.Contents Val}
    (i : Nat) (vx : Tx.Contents Val) (vy : y.ref.ty.Contents Val) (hi : L[i]? = some ⟨x.ref, x.toBuf vx⟩)
    (hv : vy = y.toBuf (f vx)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.unary x y f :: rest) V) Lout :=
  step_unary i (x.toBuf vx) vy hi
    (hv.trans (congrArg (fun t => y.toBuf (f t)) (ofBuf_toBuf x vx).symm)) hfr k

/-- A typed-reference operation of two operands. -/
theorem step_tbinary {a : TRef sig Ta} {b : TRef sig Tb} {y : TRef sig Ty}
    {f : Ta.Contents Val → Tb.Contents Val → Ty.Contents Val}
    (i j : Nat) (va : Ta.Contents Val) (vb : Tb.Contents Val) (vy : y.ref.ty.Contents Val)
    (hi : L[i]? = some ⟨a.ref, a.toBuf va⟩) (hj : L[j]? = some ⟨b.ref, b.toBuf vb⟩)
    (hv : vy = y.toBuf (f va vb)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.binary a b y f :: rest) V) Lout :=
  step_binary i j (a.toBuf va) (b.toBuf vb) vy hi hj
    (hv.trans (congrArg₂ (fun s t => y.toBuf (f s t)) (ofBuf_toBuf a va).symm (ofBuf_toBuf b vb).symm)) hfr k

/-- A typed-reference operation of three operands (a module-local `select`). -/
theorem step_tternary {c : TRef sig Tc} {a : TRef sig Ta} {b : TRef sig Tb} {y : TRef sig Ty}
    {f : Tc.Contents Val → Ta.Contents Val → Tb.Contents Val → Ty.Contents Val}
    (i j l : Nat) (vc : Tc.Contents Val) (va : Ta.Contents Val) (vb : Tb.Contents Val) (vy : y.ref.ty.Contents Val)
    (hi : L[i]? = some ⟨c.ref, c.toBuf vc⟩) (hj : L[j]? = some ⟨a.ref, a.toBuf va⟩)
    (hl : L[l]? = some ⟨b.ref, b.toBuf vb⟩)
    (hv : vy = y.toBuf (f vc va vb)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.ternary c a b y f :: rest) V) Lout :=
  step_ternary i j l (c.toBuf vc) (a.toBuf va) (b.toBuf vb) vy hi hj hl
    (by rw [hv, ofBuf_toBuf, ofBuf_toBuf, ofBuf_toBuf]) hfr k

end Builders

end HostLine
-- ==== Proof.Chain.lean ====
/-
  The kernel program's host side, read as values. Between the two tiled matrix products the program looks rows of a
  table up by each edge's source node and sums them into the edge's destination node; each such stretch is named here as
  one function of the table and the two rows of the edge list, and the buffer contents at each boundary of the run are
  shown to be those functions of the contents at the boundary before.
-/
import proofs.«425367_j63144609185882_3_alg».proof.Proof.Gen.KernelIdeal.Frame
import proofs.«425367_j63144609185882_3_alg».proof.Proof.Spec
import proofs.«425367_j63144609185882_3_alg».proof.Proof.HostFns
import proofs.«425367_j63144609185882_3_alg».proof.Proof.LibHostLine3
import Idealize.ShloMosaic.Lib.StableHlo.Run

noncomputable section

namespace Cert.KernelIdeal.Chain

open Cert.KernelIdeal Cert.KernelIdeal.Gen Idealize.ShloMosaic Idealize.ShloMosaic.TcCoe Idealize.SL.Sem

variable {F : FTy → Type} [FloatOps F]

variable (m : (ℓ : Loc nD τ sig) → Buf (Elt F) ℓ) (ρ : Dev nD → PrngReg)

/-! ## The first stretch of host operations: the two rows of the edge list -/

theorem W1_src (c : Dev nD) : W1 m ρ c (Proc.devRef .tc main_call0_v1) = srcRow (m ((c : Thread nD τ).loc main_arg1)) := by
  show StableHlo.after hostOps0 (W0 m ρ c) (Proc.devRef .tc main_call0_v1) = _
  after_results <;> rfl
theorem W1_dst (c : Dev nD) : W1 m ρ c (Proc.devRef .tc main_call0_v3) = dstRow (m ((c : Thread nD τ).loc main_arg1)) := by
  show StableHlo.after hostOps0 (W0 m ρ c) (Proc.devRef .tc main_call0_v3) = _
  after_results <;> rfl
theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl

/-! ## The second stretch: look up layer 1's rows by source, sum them by destination; the hidden bias as a row -/

set_option maxHeartbeats 4000000 in
theorem W3_agg (c : Dev nD) : W3 m ρ c (Proc.devRef .tc main_call0_v8)
    = segsum8 (take8 (W2 m ρ c (Proc.devRef .tc main_call0_v4)) (W2 m ρ c (Proc.devRef .tc main_call0_v1))) (W2 m ρ c (Proc.devRef .tc main_call0_v3)) := by
  show StableHlo.after hostOps1 (W2 m ρ c) (Proc.devRef .tc main_call0_v8) = _
  generalize W2 m ρ c = V
  after_results_simp
  simp only [HostLine.ofBuf_toBuf]
  rfl
set_option maxHeartbeats 4000000 in
theorem W3_bias (c : Dev nD) : W3 m ρ c (Proc.devRef .tc main_call0_v9)
    = shapeCast S1x8 (W2 m ρ c (Proc.devRef .tc main_arg3)) shapeCasts_S8_S1x8 := by
  show StableHlo.after hostOps1 (W2 m ρ c) (Proc.devRef .tc main_call0_v9) = _
  after_results_simp <;> rfl
set_option maxHeartbeats 4000000 in
theorem W3_arg4 (c : Dev nD) : W3 m ρ c (Proc.devRef .tc main_arg4) = W2 m ρ c (Proc.devRef .tc main_arg4) := by
  show StableHlo.after hostOps1 (W2 m ρ c) (Proc.devRef .tc main_arg4) = _
  after_results_simp <;> rfl
set_option maxHeartbeats 4000000 in
theorem W3_arg5 (c : Dev nD) : W3 m ρ c (Proc.devRef .tc main_arg5) = W2 m ρ c (Proc.devRef .tc main_arg5) := by
  show StableHlo.after hostOps1 (W2 m ρ c) (Proc.devRef .tc main_arg5) = _
  after_results_simp <;> rfl
set_option maxHeartbeats 4000000 in
theorem W3_src (c : Dev nD) : W3 m ρ c (Proc.devRef .tc main_call0_v1) = W2 m ρ c (Proc.devRef .tc main_call0_v1) := by
  show StableHlo.after hostOps1 (W2 m ρ c) (Proc.devRef .tc main_call0_v1) = _
  after_results_simp <;> rfl
set_option maxHeartbeats 4000000 in
theorem W3_dst (c : Dev nD) : W3 m ρ c (Proc.devRef .tc main_call0_v3) = W2 m ρ c (Proc.devRef .tc main_call0_v3) := by
  show StableHlo.after hostOps1 (W2 m ρ c) (Proc.devRef .tc main_call0_v3) = _
  after_results_simp <;> rfl

/-! ## The third stretch: look up layer 2's rows by source, sum them by destination, add the output bias -/

set_option maxHeartbeats 4000000 in
theorem W5_out (c : Dev nD) : W5 m ρ c (Proc.devRef .tc main_v0)
    = addf (segsum3 (take3 (W4 m ρ c (Proc.devRef .tc main_call0_v10)) (W4 m ρ c (Proc.devRef .tc main_call0_v1))) (W4 m ρ c (Proc.devRef .tc main_call0_v3)))
        (biasRows3 (W4 m ρ c (Proc.devRef .tc main_arg5))) := by
  show StableHlo.after hostOps2 (W4 m ρ c) (Proc.devRef .tc main_v0) = _
  generalize W4 m ρ c = V
  after_results_simp
  simp only [HostLine.ofBuf_toBuf]
  rfl

end Cert.KernelIdeal.Chain

end
-- ==== Proof.Region0.lean ====
/-
  The first tiled matrix product as a whole array. The rows of the node features are cut into 64 tiles of 4096 rows; at
  tile t the product of rows 4096·t … 4096·t + 4095 with the whole 500×8 weight matrix is written to the same rows of
  the output. At the ideal instance the narrowing of both operands is the identity and a product into a zero accumulator
  is the plain sum over the 500 contracted positions, so entry (p, q) of a tile is the sum over k of x[4096·t + p, k] ·
  w[k, q]: row 4096·t + p of the layer-1 formula. Every output row r lies in exactly one tile (t = r / 4096), so the
  output array ends holding the layer-1 formula of the two argument arrays, whatever the rest of the memory holds.
-/
import proofs.«425367_j63144609185882_3_alg».proof.Proof.Gen.KernelIdeal.Frame
import proofs.«425367_j63144609185882_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The product of a block of rows with the weight matrix, entry by entry -/

/-- The left operand's index at output index `i` and contraction index `q`: on the row axis, the output's row. -/
theorem lhs_dense1_0 (i : S4096x8.Idx) (q : dot_S4096x500_S500x8_S4096x8_1_0_0_1_n_n.contr.Idx) :
    (dot_S4096x500_S500x8_S4096x8_1_0_0_1_n_n.lhsIdx i q 0).val = (i 0).val := by
  unfold DotDims.lhsIdx
  rw [dif_neg (show ¬(0 : Fin S4096x500.rank) ∈ dot_S4096x500_S500x8_S4096x8_1_0_0_1_n_n.lhsBatch by decide), dif_pos (show (0 : Fin S4096x500.rank) ∈ dot_S4096x500_S500x8_S4096x8_1_0_0_1_n_n.lhsNonContracting by decide)]
  rfl
/-- … and on the feature axis, the contracted position. -/
theorem lhs_dense1_1 (i : S4096x8.Idx) (q : dot_S4096x500_S500x8_S4096x8_1_0_0_1_n_n.contr.Idx) :
    (dot_S4096x500_S500x8_S4096x8_1_0_0_1_n_n.lhsIdx i q 1).val = (q ⟨0, by decide⟩).val :=
  dot_S4096x500_S500x8_S4096x8_1_0_0_1_n_n.lhsIdx_val_of_single rfl i q
/-- The right operand's index: on the feature axis, the contracted position, -/
theorem rhs_dense1_0 (i : S4096x8.Idx) (q : dot_S4096x500_S500x8_S4096x8_1_0_0_1_n_n.contr.Idx) :
    (dot_S4096x500_S500x8_S4096x8_1_0_0_1_n_n.rhsIdx i q 0).val = (q ⟨0, by decide⟩).val :=
  dot_S4096x500_S500x8_S4096x8_1_0_0_1_n_n.rhsIdx_val_of_single rfl i q
/-- … and on the column axis, the output's column. -/
theorem rhs_dense1_1 (i : S4096x8.Idx) (q : dot_S4096x500_S500x8_S4096x8_1_0_0_1_n_n.contr.Idx) :
    (dot_S4096x500_S500x8_S4096x8_1_0_0_1_n_n.rhsIdx i q 1).val = (i 1).val := by
  unfold DotDims.rhsIdx
  rw [dif_neg (show ¬(1 : Fin S500x8.rank) ∈ dot_S4096x500_S500x8_S4096x8_1_0_0_1_n_n.rhsBatch by decide), dif_pos (show (1 : Fin S500x8.rank) ∈ dot_S4096x500_S500x8_S4096x8_1_0_0_1_n_n.rhsNonContracting by decide)]
  rfl

/-- On the extended reals the narrowing of the operands is the identity and a product accumulated into zero is the
    plain sum: entry (p, q) of the body's result is the sum over the 500 features k of x[p, k] * w[k, q]. -/
theorem pay_apply (x0 : Vec Ideal S4096x500 .f32) (x1 : Vec Ideal S500x8 .f32) (p : Fin 4096) (q : Fin 8) :
    k0_pay1 (F := Ideal) x0 x1 (ix2 p q) = ∑ k : Fin 500, x0 (ix2 p k) * x1 (ix2 k q) := by
  unfold k0_pay1
  refine (Ideal.matmul_constant_zero_apply dot_S4096x500_S500x8_S4096x8_1_0_0_1_n_n none _ _ (ix2 p q)).trans ?_
  rw [← Equiv.sum_comp (contrEquiv1 dot_S4096x500_S500x8_S4096x8_1_0_0_1_n_n 500 rfl rfl).symm]
  refine Finset.sum_congr rfl fun k _ => ?_
  have hk := contrEquiv1_symm_val dot_S4096x500_S500x8_S4096x8_1_0_0_1_n_n 500 rfl rfl k
  have el : dot_S4096x500_S500x8_S4096x8_1_0_0_1_n_n.lhsIdx (ix2 p q) ((contrEquiv1 dot_S4096x500_S500x8_S4096x8_1_0_0_1_n_n 500 rfl rfl).symm k) = ix2 p k := funext fun a => Fin.ext (by
    match a with
    | ⟨0, _⟩ => exact lhs_dense1_0 _ _
    | ⟨1, _⟩ => exact (lhs_dense1_1 _ _).trans hk)
  have er : dot_S4096x500_S500x8_S4096x8_1_0_0_1_n_n.rhsIdx (ix2 p q) ((contrEquiv1 dot_S4096x500_S500x8_S4096x8_1_0_0_1_n_n 500 rfl rfl).symm k) = ix2 k q := funext fun a => Fin.ext (by
    match a with
    | ⟨0, _⟩ => exact (rhs_dense1_0 _ _).trans hk
    | ⟨1, _⟩ => exact rhs_dense1_1 _ _)
  rw [el, er]
  rfl

/-! ## What a grid point writes back -/

theorem hz : (![0, 0] : Fin 2 → Nat) = fun _ => 0 := funext fun a => by fin_cases a <;> rfl

/-- The index maps over the 64 grid points: point `t` takes row block `t` of the features and of the result, and
    the one block of the weight matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the body's result is the entry of the whole product it sits at, once row `p` of the feature block
    is the row of the feature array that entry belongs to and column `q` of the weight block is its column. -/
theorem block_entry (x : FVec Ideal S262144x500 .f32) (w : FVec Ideal S500x8 .f32)
    (x0 : Vec Ideal S4096x500 .f32) (x1 : Vec Ideal S500x8 .f32) (i : S262144x8.Idx) (p : Fin 4096) (q : Fin 8)
    (h0 : ∀ k : Fin 500, x0 (ix2 p k) = x (ix2 (⟨(i 0).val, idx2_lt0 i⟩ : Fin 262144) k))
    (h1 : ∀ k : Fin 500, x1 (ix2 k q) = w (ix2 k (⟨(i 1).val, idx2_lt1 i⟩ : Fin 8))) :
    k0_pay1 (F := Ideal) x0 x1 (ix2 p q) = Cert.Gcn.dense1 x w i := by
  rw [pay_apply]
  unfold Cert.Gcn.dense1
  exact Finset.sum_congr rfl fun k _ => by rw [h0 k, h1 k]

/-- Point `t` writes back block `t` of the whole product: rows 4096 t … 4096 t + 4095. -/
theorem flushed_eq (c : Dev nD) (t : Fin cfg0.N) :
    (dat0 (F := Ideal) V c).flushed 2 t
      = ((cfg0.win 2).blk t).view.read (Elt Ideal) (Cert.Gcn.dense1 (V c main_arg0) (V c main_arg2)) := by
  show (cfg0.win 2).cut (grid0.coords t) ((dat0 V c).after 2 t) = _
  rw [after0_2]
  unfold out0_2
  rw [View.canon_unit_zero hz]
  simp only [View.ld_unit_zero (S := S4096x500) hz, View.ld_unit_zero (S := S500x8) hz]
  obtain ⟨e00, e01, e10, e11, e20, e21⟩ := idx_facts t
  funext j
  obtain ⟨p, q, rfl⟩ : ∃ (p : Fin 4096) (q : Fin 8), j = ix2 p q := ⟨j 0, j 1, eq_ix2 j⟩
  show k0_pay1 (F := Ideal) (iblk0 V c 0 t) (iblk0 V c 1 t) (ix2 p q)
    = Cert.Gcn.dense1 (V c main_arg0) (V c main_arg2) (((cfg0.win 2).blk t).view.emb (ix2 p q))
  refine block_entry (V c main_arg0) (V c main_arg2) (iblk0 V c 0 t) (iblk0 V c 1 t)
    (((cfg0.win 2).blk t).view.emb (ix2 p q)) p q (fun k => ?_) (fun k => ?_)
  · -- row p of the feature block is row 4096 t + p of the feature array
    show V c main_arg0 (((cfg0.win 0).blk t).view.emb (ix2 p k)) = _
    refine congrArg (V c main_arg0) (funext fun a => Fin.ext ?_)
    match a with
    | ⟨0, _⟩ => show win0_0.index t (0 : Fin 2) * 4096 + 1 * p.val = win0_2.index t (0 : Fin 2) * 4096 + 1 * p.val; omega
    | ⟨1, _⟩ => show win0_0.index t (1 : Fin 2) * 500 + 1 * k.val = k.val; omega
  · -- the weight block is the whole weight matrix
    show V c main_arg2 (((cfg0.win 1).blk t).view.emb (ix2 k q)) = _
    refine congrArg (V c main_arg2) (funext fun a => Fin.ext ?_)
    match a with
    | ⟨0, _⟩ => show win0_1.index t (0 : Fin 2) * 500 + 1 * k.val = k.val; omega
    | ⟨1, _⟩ => show win0_1.index t (1 : Fin 2) * 8 + 1 * q.val = win0_2.index t (1 : Fin 2) * 8 + 1 * q.val; omega

/-! ## The 64 blocks tile the rows -/

/-- An index of the result array is in point `t`'s block iff each coordinate is in the block's range on its axis. -/
theorem mem_blk (t : Fin cfg0.N) (i : S262144x8.Idx) :
    i ∈ ((cfg0.win 2).blk t).view.set ↔ ∀ a : Fin 2, win0_2.index t a * S4096x8.size a ≤ (i a).val
      ∧ (i a).val < win0_2.index t a * S4096x8.size a + S4096x8.size a := by
  show i ∈ ((View.whole main_call0_v4).slice (win0_2.rect t)).set ↔ _
  rw [View.set_slice_whole, Rect.mem_set_unit]
  exact Iff.rfl

/-- Row `r` of the result is written back by point `r / 4096`. -/
theorem cover (i : S262144x8.Idx) :
    ∃ t : Fin cfg0.N, (cfg0.win 2).flush t = true ∧ i ∈ ((cfg0.win 2).blk t).view.set := by
  have hi0 : (i 0).val < 262144 := (i 0).isLt
  have hi1 : (i 1).val < 8 := (i 1).isLt
  have hN : cfg0.N = 64 := by decide +kernel
  obtain ⟨t, ht⟩ : ∃ t : Fin cfg0.N, t.val = (i 0).val / 4096 := ⟨⟨(i 0).val / 4096, by rw [hN]; omega⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 8 ≤ (i 1).val ∧ (i 1).val < win0_2.index t (1 : Fin 2) * 8 + 8
    omega

/-! ## The result array after the 64 points -/

theorem value (c : Dev nD) :
    (dat0 (F := Ideal) V c).arrAt 2 cfg0.N = Cert.Gcn.dense1 (V c main_arg0) (V c main_arg2) := by
  exact (dat0 (F := Ideal) V c).arrAt_eq_of_cover 2 (Cert.Gcn.dense1 (V c main_arg0) (V c main_arg2))
    (fun t _ => flushed_eq V c t) cover

end Cert.KernelIdeal.Region0

end
-- ==== Proof.Region1.lean ====
/-
  The second tiled matrix product as a whole array. The rows of the aggregated hidden features are cut into 32 tiles of
  8192 rows; at tile t the body adds the 1×8 bias row to every row of the tile, clips at zero, and multiplies by the whole
  8×3 weight matrix, writing the same rows of the output. At the ideal instance the two casts to the same shape and the
  narrowing of both operands are the identity, the row broadcast reads the bias at the column, and a product into a zero
  accumulator is the plain sum over the 8 contracted positions, so entry (p, q) of a tile is the sum over k of
  max(agg[8192·t + p, k] + b[0, k], 0) · w[k, q]: row 8192·t + p of the layer-2 formula. Every output row r lies in
  exactly one tile (t = r / 8192), so the output array ends holding the layer-2 formula of its three input arrays.
-/
import proofs.«425367_j63144609185882_3_alg».proof.Proof.Gen.KernelIdeal.Frame
import proofs.«425367_j63144609185882_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.ShloMosaic.ValueIdx Idealize.SL.Sem

/-! ## The matmul's operand indices, axis by axis

The product contracts the left operand's axis 1 with the right operand's axis 0: at output index `i` and
contraction index `q` the left operand is read at `(i 0, q)` and the right operand at `(q, i 1)`. -/

theorem lhs_pay_0 (i : S8192x3.Idx) (q : dot_S8192x8_S8x3_S8192x3_1_0_0_1_n_n.contr.Idx) :
    (dot_S8192x8_S8x3_S8192x3_1_0_0_1_n_n.lhsIdx i q 0).val = (i 0).val := by
  unfold DotDims.lhsIdx
  rw [dif_neg (show ¬(0 : Fin S8192x8.rank) ∈ dot_S8192x8_S8x3_S8192x3_1_0_0_1_n_n.lhsBatch by decide), dif_pos (show (0 : Fin S8192x8.rank) ∈ dot_S8192x8_S8x3_S8192x3_1_0_0_1_n_n.lhsNonContracting by decide)]
  rfl
theorem lhs_pay_1 (i : S8192x3.Idx) (q : dot_S8192x8_S8x3_S8192x3_1_0_0_1_n_n.contr.Idx) :
    (dot_S8192x8_S8x3_S8192x3_1_0_0_1_n_n.lhsIdx i q 1).val = (q ⟨0, by decide⟩).val :=
  dot_S8192x8_S8x3_S8192x3_1_0_0_1_n_n.lhsIdx_val_of_single rfl i q
theorem rhs_pay_0 (i : S8192x3.Idx) (q : dot_S8192x8_S8x3_S8192x3_1_0_0_1_n_n.contr.Idx) :
    (dot_S8192x8_S8x3_S8192x3_1_0_0_1_n_n.rhsIdx i q 0).val = (q ⟨0, by decide⟩).val :=
  dot_S8192x8_S8x3_S8192x3_1_0_0_1_n_n.rhsIdx_val_of_single rfl i q
theorem rhs_pay_1 (i : S8192x3.Idx) (q : dot_S8192x8_S8x3_S8192x3_1_0_0_1_n_n.contr.Idx) :
    (dot_S8192x8_S8x3_S8192x3_1_0_0_1_n_n.rhsIdx i q 1).val = (i 1).val := by
  unfold DotDims.rhsIdx
  rw [dif_neg (show ¬(1 : Fin S8x3.rank) ∈ dot_S8192x8_S8x3_S8192x3_1_0_0_1_n_n.rhsBatch by decide), dif_pos (show (1 : Fin S8x3.rank) ∈ dot_S8192x8_S8x3_S8192x3_1_0_0_1_n_n.rhsNonContracting by decide)]
  rfl

/-- The product into a zero accumulator, read at `(p, q)`: the sum over the 8 contracted positions `k` of the left
    operand at `(p, k)` times the right operand at `(k, q)`. -/
theorem matmul_zero_apply (a : FVec Ideal S8192x8 .bf16) (b : FVec Ideal S8x3 .bf16) (p : Fin 8192) (q : Fin 3) :
    matmul dot_S8192x8_S8x3_S8192x3_1_0_0_1_n_n none a b (constant (F := Ideal) S8192x3 .f32 0x00000000#32) (ix2 p q)
      = ∑ k : Fin 8, a (ix2 p k) * b (ix2 k q) := by
  simp only [matmul]
  rw [Ideal.matmul_constant_zero_apply, ← Equiv.sum_comp (contrEquiv1 dot_S8192x8_S8x3_S8192x3_1_0_0_1_n_n 8 rfl rfl).symm]
  refine Finset.sum_congr rfl fun k _ => ?_
  have hk := contrEquiv1_symm_val dot_S8192x8_S8x3_S8192x3_1_0_0_1_n_n 8 rfl rfl k
  have el : dot_S8192x8_S8x3_S8192x3_1_0_0_1_n_n.lhsIdx (ix2 p q) ((contrEquiv1 dot_S8192x8_S8x3_S8192x3_1_0_0_1_n_n 8 rfl rfl).symm k) = ix2 p k := funext fun ax => Fin.ext (by
    match ax with
    | ⟨0, _⟩ => exact lhs_pay_0 _ _
    | ⟨1, _⟩ => exact (lhs_pay_1 _ _).trans hk)
  have er : dot_S8192x8_S8x3_S8192x3_1_0_0_1_n_n.rhsIdx (ix2 p q) ((contrEquiv1 dot_S8192x8_S8x3_S8192x3_1_0_0_1_n_n 8 rfl rfl).symm k) = ix2 k q := funext fun ax => Fin.ext (by
    match ax with
    | ⟨0, _⟩ => exact (rhs_pay_0 _ _).trans hk
    | ⟨1, _⟩ => exact rhs_pay_1 _ _)
  rw [el, er]

/-! ## The body's arithmetic at an index -/

/-- What the body stores, read at `(p, q)`: the sum over the 8 hidden features `k` of the clipped biased feature
    `max (x0 (p, k) + x1 (0, k)) 0` times the weight `x2 (k, q)`. The two shape casts are identities, the row broadcast
    reads the bias row at the column, and the narrowings are the identity on the extended reals. -/
theorem pay_apply (x0 : Vec Ideal S8192x8 .f32) (x1 : Vec Ideal S1x8 .f32) (x2 : Vec Ideal S8x3 .f32) (p : Fin 8192) (q : Fin 3) :
    k1_pay1 (F := Ideal) x0 x1 x2 (ix2 p q)
      = ∑ k : Fin 8, max (x0 (ix2 p k) + x1 (ix2 (0 : Fin 1) k)) (Ideal.ofBits .f32 0x00000000#32) * x2 (ix2 k q) := by
  unfold k1_pay1
  rw [matmul_zero_apply]
  refine Finset.sum_congr rfl fun k _ => ?_
  rw [truncf_apply, truncf_apply, maximumf_apply, addf_apply, broadcast_apply, shapeCast_self, shapeCast_self, shapeCast_self,
    broadcastTo_1b_ab_apply]
  rfl

/-- The body's result at `(p, q)` is the layer's entry at array index `i` whenever the loaded blocks are the arrays read
    where the output's block sits: the feature block is rows `n * 8192 …` of the aggregated features, the bias block is
    the bias row, the weight block is the weight matrix, and `i` is row `n * 8192 + p`, column `q`. -/
theorem point_value (A : FVec Ideal ⟨2, ![262144, 8]⟩ .f32) (B : FVec Ideal ⟨2, ![1, 8]⟩ .f32) (W : FVec Ideal ⟨2, ![8, 3]⟩ .f32)
    (x0 : Vec Ideal S8192x8 .f32) (x1 : Vec Ideal S1x8 .f32) (x2 : Vec Ideal S8x3 .f32) (n : Nat)
    (h0 : ∀ (p : Fin 8192) (k : Fin 8) (r : Fin 262144), r.val = n * 8192 + p.val → x0 (ix2 p k) = A (ix2 r k))
    (h1 : ∀ k : Fin 8, x1 (ix2 (0 : Fin 1) k) = B (ix2 (0 : Fin 1) k))
    (h2 : ∀ (k : Fin 8) (q : Fin 3), x2 (ix2 k q) = W (ix2 k q))
    (p : Fin 8192) (q : Fin 3) (i : S262144x3.Idx) (hi0 : (i 0).val = n * 8192 + p.val) (hi1 : (i 1).val = q.val) :
    k1_pay1 (F := Ideal) x0 x1 x2 (ix2 p q) = Cert.Gcn.dense2 A B W i := by
  rw [pay_apply]
  unfold Cert.Gcn.dense2
  refine Finset.sum_congr rfl fun k _ => ?_
  rw [h0 p k ⟨(i 0).val, idx2_lt0 i⟩ hi0, h1 k, h2 k q, show (⟨(i 1).val, idx2_lt1 i⟩ : Fin 3) = q from Fin.ext hi1]

/-! ## From the blocks to the array -/

theorem hz : (![0, 0] : Fin 2 → Nat) = fun _ => 0 := funext fun a => by fin_cases a <;> rfl

/-- The printed index maps, decided once over the 32 grid points: the feature window moves with the output window along
    the rows and sits at column block 0; the bias and weight windows stay at block (0, 0); the output's row block is at
    most 31 and its column block is 0. -/
theorem idx_facts : ∀ t : Fin cfg1.N,
      win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 31 ∧ win1_3.index t (1 : Fin 2) = 0 :=
  (by decide +kernel : ∀ t : Fin grid1.N, _)

/-- Every row block of the output is some point's. -/
theorem idx_onto : ∀ (q0 : Fin 32), ∃ t : Fin cfg1.N, win1_3.index t = ![q0.val, 0] :=
  (by decide +kernel : ∀ (q0 : Fin 32), ∃ t : Fin grid1.N, win1_3.index t = ![q0.val, 0])

variable (V : (c : Dev nD) → (b : Ref sig .tc) → Buf (Elt Ideal) ((c : Thread nD τ).loc b))

/-- The three arrays the region reads, as it finds them, at their literal types. -/
abbrev aggArr (c : Dev nD) : FVec Ideal ⟨2, ![262144, 8]⟩ .f32 := V c main_call0_v8
abbrev biasArr (c : Dev nD) : FVec Ideal ⟨2, ![1, 8]⟩ .f32 := V c main_call0_v9
abbrev wArr (c : Dev nD) : FVec Ideal ⟨2, ![8, 3]⟩ .f32 := V c main_arg4

/-- Their blocks at point `t`, at their literal types. -/
abbrev aggBlk (c : Dev nD) (t : Fin cfg1.N) : Vec Ideal S8192x8 .f32 := iblk1 V c 0 t
abbrev biasBlk (c : Dev nD) (t : Fin cfg1.N) : Vec Ideal S1x8 .f32 := iblk1 V c 1 t
abbrev wBlk (c : Dev nD) (t : Fin cfg1.N) : Vec Ideal S8x3 .f32 := iblk1 V c 2 t

/-- The feature block at point `t` is rows `8192 * (the output's row block) …` of the aggregated features. -/
theorem aggBlk_apply (c : Dev nD) (t : Fin cfg1.N) (p : Fin 8192) (k : Fin 8) (r : Fin 262144)
    (hr : r.val = win1_3.index t (0 : Fin 2) * 8192 + p.val) : aggBlk V c t (ix2 p k) = aggArr V c (ix2 r k) := by
  obtain ⟨e0, e1, -⟩ := idx_facts t
  show V c main_call0_v8 (((cfg1.win 0).blk t).view.emb (ix2 p k)) = V c main_call0_v8 (ix2 r k)
  refine congrArg (V c main_call0_v8) (funext fun a => Fin.ext ?_)
  match a with
  | ⟨0, _⟩ => show win1_0.index t (0 : Fin 2) * 8192 + 1 * p.val = r.val; omega
  | ⟨1, _⟩ => show win1_0.index t (1 : Fin 2) * 8 + 1 * k.val = k.val; omega

/-- The bias block at every point is the bias row. -/
theorem biasBlk_apply (c : Dev nD) (t : Fin cfg1.N) (k : Fin 8) : biasBlk V c t (ix2 (0 : Fin 1) k) = biasArr V c (ix2 (0 : Fin 1) k) := by
  obtain ⟨-, -, e2, e3, -⟩ := idx_facts t
  show V c main_call0_v9 (((cfg1.win 1).blk t).view.emb (ix2 (0 : Fin 1) k)) = V c main_call0_v9 (ix2 (0 : Fin 1) k)
  refine congrArg (V c main_call0_v9) (funext fun a => Fin.ext ?_)
  match a with
  | ⟨0, _⟩ => show win1_1.index t (0 : Fin 2) * 1 + 1 * (0 : Fin 1).val = (0 : Fin 1).val; omega
  | ⟨1, _⟩ => show win1_1.index t (1 : Fin 2) * 8 + 1 * k.val = k.val; omega

/-- The weight block at every point is the weight matrix. -/
theorem wBlk_apply (c : Dev nD) (t : Fin cfg1.N) (k : Fin 8) (q : Fin 3) : wBlk V c t (ix2 k q) = wArr V c (ix2 k q) := by
  obtain ⟨-, -, -, -, e4, e5, -⟩ := idx_facts t
  show V c main_arg4 (((cfg1.win 2).blk t).view.emb (ix2 k q)) = V c main_arg4 (ix2 k q)
  refine congrArg (V c main_arg4) (funext fun a => Fin.ext ?_)
  match a with
  | ⟨0, _⟩ => show win1_2.index t (0 : Fin 2) * 8 + 1 * k.val = k.val; omega
  | ⟨1, _⟩ => show win1_2.index t (1 : Fin 2) * 3 + 1 * q.val = q.val; omega

/-- What point `t` writes back is block `t` of the layer's output computed from the arrays as the region finds them. -/
theorem flushed_eq (c : Dev nD) (t : Fin cfg1.N) :
    (dat1 (F := Ideal) V c).flushed 3 t
      = ((cfg1.win 3).blk t).view.read (Elt Ideal) (Cert.Gcn.dense2 (V c main_call0_v8) (V c main_call0_v9) (V c main_arg4)) := by
  show (cfg1.win 3).cut (grid1.coords t) ((dat1 V c).after 3 t) = _
  rw [after1_3]
  unfold out1_3
  rw [View.canon_unit_zero hz]
  simp only [View.ld_unit_zero (S := S8192x8) hz, View.ld_unit_zero (S := S1x8) hz, View.ld_unit_zero (S := S8x3) hz]
  obtain ⟨-, -, -, -, -, -, -, e7⟩ := idx_facts t
  funext j
  obtain ⟨p, q, rfl⟩ : ∃ (p : Fin 8192) (q : Fin 3), j = ix2 p q := ⟨j 0, j 1, eq_ix2 j⟩
  show k1_pay1 (F := Ideal) (aggBlk V c t) (biasBlk V c t) (wBlk V c t) (ix2 p q)
    = Cert.Gcn.dense2 (aggArr V c) (biasArr V c) (wArr V c) (((cfg1.win 3).blk t).view.emb (ix2 p q))
  exact point_value (aggArr V c) (biasArr V c) (wArr V c) (aggBlk V c t) (biasBlk V c t) (wBlk V c t) (win1_3.index t (0 : Fin 2))
    (fun p k r hr => aggBlk_apply V c t p k r hr) (fun k => biasBlk_apply V c t k) (fun k q => wBlk_apply V c t k q) p q
    (((cfg1.win 3).blk t).view.emb (ix2 p q))
    (show win1_3.index t (0 : Fin 2) * 8192 + 1 * p.val = win1_3.index t (0 : Fin 2) * 8192 + p.val by omega)
    (show win1_3.index t (1 : Fin 2) * 3 + 1 * q.val = q.val by omega)

/-- An index of the output array is in point `t`'s block iff each coordinate is in the block's range on its axis. -/
theorem mem_blk (t : Fin cfg1.N) (i : S262144x3.Idx) :
    i ∈ ((cfg1.win 3).blk t).view.set ↔ ∀ a : Fin 2, win1_3.index t a * S8192x3.size a ≤ (i a).val ∧ (i a).val < win1_3.index t a * S8192x3.size a + S8192x3.size a := by
  show i ∈ ((View.whole main_call0_v10).slice (win1_3.rect t)).set ↔ _
  rw [View.set_slice_whole, Rect.mem_set_unit]
  exact Iff.rfl

/-- The 32 blocks of 8192 rows tile the 262144 rows: row `r` is in the block of the point whose row block is `r / 8192`. -/
theorem cover (i : S262144x3.Idx) : ∃ t : Fin cfg1.N, (cfg1.win 3).flush t = true ∧ i ∈ ((cfg1.win 3).blk t).view.set := by
  have hi0 : (i 0).val < 262144 := (i 0).isLt
  have hi1 : (i 1).val < 3 := (i 1).isLt
  obtain ⟨t, ht⟩ := idx_onto ⟨(i 0).val / 8192, by omega⟩
  have q0 : win1_3.index t (0 : Fin 2) = (i 0).val / 8192 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 8192 ≤ (i 0).val ∧ (i 0).val < win1_3.index t (0 : Fin 2) * 8192 + 8192; omega
  | ⟨1, _⟩ => show win1_3.index t (1 : Fin 2) * 3 ≤ (i 1).val ∧ (i 1).val < win1_3.index t (1 : Fin 2) * 3 + 3; omega

/-- The output array after the region: the second dense layer of the arrays the region finds. -/
theorem value (c : Dev nD) :
    (dat1 (F := Ideal) V c).arrAt 3 cfg1.N = Cert.Gcn.dense2 (V c main_call0_v8) (V c main_call0_v9) (V c main_arg4) :=
  (dat1 (F := Ideal) V c).arrAt_eq_of_cover 3 (Cert.Gcn.dense2 (V c main_call0_v8) (V c main_call0_v9) (V c main_arg4))
    (fun t _ => flushed_eq V c t) (fun i => cover i)

end Cert.KernelIdeal.Region1

end
-- ==== Proof.KernelValue.lean ====
/-
  The kernel program's result as one function of its arguments. The run's buffer contents are followed boundary by
  boundary: the first stretch leaves the two rows of the edge list; region 0 leaves layer 1's product in its output
  array and every other buffer alone; the second stretch looks that product up by source, sums by destination, and lays
  the hidden bias out as a row; region 1 leaves layer 2's product of those; the last stretch looks it up, sums, and adds
  the output bias. Substituting each boundary into the next gives the composition `program dense1 dense2`.
-/
import proofs.«425367_j63144609185882_3_alg».proof.Proof.Chain
import proofs.«425367_j63144609185882_3_alg».proof.Proof.Region0
import proofs.«425367_j63144609185882_3_alg».proof.Proof.Region1

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## After region 0 -/

theorem W2_sup (c : Dev nD) : W2 m ρ c (Proc.devRef .tc main_call0_v4)
    = Cert.Gcn.dense1 (m ((c : Thread nD τ).loc main_arg0)) (m ((c : Thread nD τ).loc main_arg2)) := by
  have h : W2 m ρ c (Proc.devRef .tc main_call0_v4) = Cert.Gcn.dense1 (V1 m ρ c main_arg0) (V1 m ρ c main_arg2) :=
    (W2_arr m ρ c 2).trans (Region0.value (V1 m ρ) c)
  rw [h, show V1 m ρ c main_arg0 = m ((c : Thread nD τ).loc main_arg0) from W1_arg0 m ρ c,
    show V1 m ρ c main_arg2 = m ((c : Thread nD τ).loc main_arg2) from W1_arg2 m ρ c]
theorem W2_src (c : Dev nD) : W2 m ρ c (Proc.devRef .tc main_call0_v1) = srcRow (m ((c : Thread nD τ).loc main_arg1)) :=
  (W2_of_ne m ρ c main_call0_v1 (by decide)).trans (W1_src m ρ c)
theorem W2_dst (c : Dev nD) : W2 m ρ c (Proc.devRef .tc main_call0_v3) = dstRow (m ((c : Thread nD τ).loc main_arg1)) :=
  (W2_of_ne m ρ c main_call0_v3 (by decide)).trans (W1_dst m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## After the second stretch -/

theorem W3_agg_val (c : Dev nD) : W3 m ρ c (Proc.devRef .tc main_call0_v8)
    = segsum8 (take8 (Cert.Gcn.dense1 (m ((c : Thread nD τ).loc main_arg0)) (m ((c : Thread nD τ).loc main_arg2)))
        (srcRow (m ((c : Thread nD τ).loc main_arg1)))) (dstRow (m ((c : Thread nD τ).loc main_arg1))) := by
  rw [W3_agg, W2_sup, W2_src, W2_dst]
theorem W3_bias_val (c : Dev nD) : W3 m ρ c (Proc.devRef .tc main_call0_v9)
    = shapeCast S1x8 (m ((c : Thread nD τ).loc main_arg3)) shapeCasts_S8_S1x8 := by
  rw [W3_bias, W2_arg3]

/-! ## After region 1 -/

theorem W4_sup (c : Dev nD) : W4 m ρ c (Proc.devRef .tc main_call0_v10)
    = Cert.Gcn.dense2
        (segsum8 (take8 (Cert.Gcn.dense1 (m ((c : Thread nD τ).loc main_arg0)) (m ((c : Thread nD τ).loc main_arg2)))
          (srcRow (m ((c : Thread nD τ).loc main_arg1)))) (dstRow (m ((c : Thread nD τ).loc main_arg1))))
        (shapeCast S1x8 (m ((c : Thread nD τ).loc main_arg3)) shapeCasts_S8_S1x8)
        (m ((c : Thread nD τ).loc main_arg4)) := by
  have h : W4 m ρ c (Proc.devRef .tc main_call0_v10)
      = Cert.Gcn.dense2 (V3 m ρ c main_call0_v8) (V3 m ρ c main_call0_v9) (V3 m ρ c main_arg4) :=
    (W4_arr m ρ c 3).trans (Region1.value (V3 m ρ) c)
  rw [h, show V3 m ρ c main_call0_v8 = _ from W3_agg_val m ρ c, show V3 m ρ c main_call0_v9 = _ from W3_bias_val m ρ c,
    show V3 m ρ c main_arg4 = m ((c : Thread nD τ).loc main_arg4) from (W3_arg4 m ρ c).trans (W2_arg4 m ρ c)]
theorem W4_src (c : Dev nD) : W4 m ρ c (Proc.devRef .tc main_call0_v1) = srcRow (m ((c : Thread nD τ).loc main_arg1)) :=
  (W4_of_ne m ρ c main_call0_v1 (by decide)).trans ((W3_src m ρ c).trans (W2_src m ρ c))
theorem W4_dst (c : Dev nD) : W4 m ρ c (Proc.devRef .tc main_call0_v3) = dstRow (m ((c : Thread nD τ).loc main_arg1)) :=
  (W4_of_ne m ρ c main_call0_v3 (by decide)).trans ((W3_dst m ρ c).trans (W2_dst m ρ c))
theorem W4_arg5 (c : Dev nD) : W4 m ρ c (Proc.devRef .tc main_arg5) = m ((c : Thread nD τ).loc main_arg5) :=
  (W4_of_ne m ρ c main_arg5 (by decide)).trans ((W3_arg5 m ρ c).trans (W2_arg5 m ρ c))

/-! ## The result -/

/-- The result buffer at the end of the run is the program's composition of its arguments. -/
theorem kernel_value (c : Dev nD) :
    W5 m ρ c (Proc.devRef .tc main_v0)
      = program (F := Ideal) Cert.Gcn.dense1 Cert.Gcn.dense2 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  rw [W5_out, W4_sup, W4_src, W4_dst, W4_arg5]
  rfl

end Cert.KernelIdeal.Chain

end
-- ==== Proof.Take.lean ====
/-
  Under the range condition on the source indices the kernel program's row lookup is the plain lookup. A source word w
  with −262144 ≤ w < 262144 (as a signed integer), wrapped (w + 262144 when w is negative, else w), lies in
  0 … 262143: so the per-edge test is 1 on every edge, its reduction along the unit axis is 1, the mask broadcast over
  the columns is all ones, and the select returns the looked-up row everywhere.
-/
import proofs.«425367_j63144609185882_3_alg».proof.Proof.HostFns
import Idealize.ShloMosaic.Lib.ValueIdx
import Idealize.ShloMosaic.Lib.StableHlo.Predicate
import Idealize.ShloMosaic.Lib.ReduceAll

noncomputable section

namespace Cert.KernelIdeal.Chain

open Cert.KernelIdeal Cert.KernelIdeal.Gen Idealize.ShloMosaic

variable {F : FTy → Type} [FloatOps F]

/-! ## Signed comparisons of 32-bit words as comparisons of their integer values -/

theorem cmpi_slt_one {a b : BitVec 32} : IntOp.cmpi .slt a b = 1#1 ↔ a.toInt < b.toInt := by
  show BitVec.ofBool (a.slt b) = 1#1 ↔ _
  rw [StableHlo.Predicate.ofBool_eq_one_iff]; exact BitVec.slt_iff_toInt_lt
theorem cmpi_sle_one {a b : BitVec 32} : IntOp.cmpi .sle a b = 1#1 ↔ a.toInt ≤ b.toInt := by
  show BitVec.ofBool (a.sle b) = 1#1 ↔ _
  rw [StableHlo.Predicate.ofBool_eq_one_iff]; exact BitVec.sle_iff_toInt_le
theorem cmpi_sge_one {a b : BitVec 32} : IntOp.cmpi .sge a b = 1#1 ↔ b.toInt ≤ a.toInt := by
  show BitVec.ofBool (b.sle a) = 1#1 ↔ _
  rw [StableHlo.Predicate.ofBool_eq_one_iff]; exact BitVec.sle_iff_toInt_le

/-- A word in [−262144, 262144), wrapped, is in [0, 262143]: both bounds tests come out 1. -/
theorem wrap_in_range (w : BitVec 32) (h1 : IntOp.cmpi .sge w 4294705152#32 = 1#1) (h2 : IntOp.cmpi .slt w 262144#32 = 1#1) :
    IntOp.andi (IntOp.cmpi .sge (Scalar.select (IntOp.cmpi .slt w 0#32) (IntOp.addi w 262144#32) w) 0#32)
               (IntOp.cmpi .sle (Scalar.select (IntOp.cmpi .slt w 0#32) (IntOp.addi w 262144#32) w) 262143#32) = 1#1 := by
  have c1 : (4294705152#32 : BitVec 32).toInt = -262144 := by decide
  have c2 : (262144#32 : BitVec 32).toInt = 262144 := by decide
  have c3 : (0#32 : BitVec 32).toInt = 0 := by decide
  have c4 : (262143#32 : BitVec 32).toInt = 262143 := by decide
  have e1 := cmpi_sge_one.1 h1
  have e2 := cmpi_slt_one.1 h2
  rw [c1] at e1; rw [c2] at e2
  by_cases hb : IntOp.cmpi .slt w 0#32 = 1#1
  · rw [hb, ValueIdx.select_one]
    have hn := cmpi_slt_one.1 hb
    rw [c3] at hn
    -- a negative w ≥ −262144 plus 262144 does not wrap
    have hsum : (IntOp.addi w 262144#32).toInt = w.toInt + 262144 := by
      show (w + 262144#32).toInt = _
      have hlt := w.isLt
      have hw := BitVec.toInt_eq_toNat_cond w
      have hs := BitVec.toInt_eq_toNat_cond (w + 262144#32)
      rw [BitVec.toNat_add] at hs
      simp only [BitVec.toNat_ofNat] at hs
      split at hw <;> split at hs <;> omega
    exact IntOp.andi_eq_one.2 ⟨cmpi_sge_one.2 (by rw [c3, hsum]; omega), cmpi_sle_one.2 (by rw [c4, hsum]; omega)⟩
  · rw [ValueIdx.eq_zero_of_ne_one hb, ValueIdx.select_zero]
    have hn : ¬ w.toInt < 0 := fun h => hb (cmpi_slt_one.2 (by rw [c3]; exact h))
    exact IntOp.andi_eq_one.2 ⟨cmpi_sge_one.2 (by rw [c3]; omega), cmpi_sle_one.2 (by rw [c4]; omega)⟩

/-- A left fold by `and` from 1 over bits that are all 1 is 1. -/
theorem foldl_andi_all_one {ι : Type} (f : ι → BitVec 1) (hf : ∀ n, f n = 1#1) :
    ∀ (l : List ι) (init : BitVec 1), init = 1#1 → l.foldl (fun r n => IntOp.andi r (f n)) init = 1#1
  | [], _, h => h
  | a :: l, _, h => foldl_andi_all_one f hf l _ (IntOp.andi_eq_one.2 ⟨h, hf a⟩)

/-- The range condition on a row of source words: every word in [−262144, 262144). -/
def InRange (s : IVec S8388608 32) : Prop :=
  ∀ i : S8388608.Idx, IntOp.cmpi .sge (s i) 4294705152#32 = 1#1 ∧ IntOp.cmpi .slt (s i) 262144#32 = 1#1

/-- Under the range condition every edge passes the bounds test. -/
theorem inBounds_one (s : IVec S8388608 32) (hs : InRange s) (j : S8388608.Idx) : inBounds (wrapIdx s) j = 1#1 := by
  unfold inBounds
  rw [Host.reduce_eq_foldl]
  refine foldl_andi_all_one _ (fun i => ?_) _ _ rfl
  exact wrap_in_range _ (hs _).1 (hs _).2

/-- So the masked lookup into the 8-column table is the lookup … -/
theorem take8_eq (sup : FVec F S262144x8 .f32) (s : IVec S8388608 32) (hs : InRange s) :
    take8 sup s = Host.gather gather_S262144x8_S8388608x1_S8388608x8_1_0_n_n_0_1_18 sup (wrapIdx s) := by
  funext j
  unfold take8
  show Scalar.select (broadcastInDim S8388608x8 ![0] bcast_S8388608_S8388608x8_0 (inBounds (wrapIdx s)) j) _ _ = _
  rw [show broadcastInDim S8388608x8 ![0] bcast_S8388608_S8388608x8_0 (inBounds (wrapIdx s)) j = 1#1 from inBounds_one s hs _]
  exact ValueIdx.select_one _ _

/-- … and so is the one into the 3-column table. -/
theorem take3_eq (sup : FVec F S262144x3 .f32) (s : IVec S8388608 32) (hs : InRange s) :
    take3 sup s = Host.gather gather_S262144x3_S8388608x1_S8388608x3_1_0_n_n_0_1_13 sup (wrapIdx s) := by
  funext j
  unfold take3
  show Scalar.select (broadcastInDim S8388608x3 ![0] bcast_S8388608_S8388608x3_0 (inBounds (wrapIdx s)) j) _ _ = _
  rw [show broadcastInDim S8388608x3 ![0] bcast_S8388608_S8388608x3_0 (inBounds (wrapIdx s)) j = 1#1 from inBounds_one s hs _]
  exact ValueIdx.select_one _ _

end Cert.KernelIdeal.Chain

end
-- ==== Proof.RefSide.lean ====
/-
  The reference, read as the same layers. Its first matrix product is the layer-1 formula index by index: the host
  product contracts the 500 features, and the two index maps of that contraction are the row and the column of the
  entry. Its second matrix product is applied to max(agg + bias, 0), the bias read through its two broadcasts, which is
  the layer-2 formula once the bias is given as a 1×8 row holding the same eight numbers. With both products named, the
  reference's result is: look up layer 1 by source, sum by destination, layer 2, look up, sum, add the output bias.
-/
import proofs.«425367_j63144609185882_3_alg».proof.Proof.Gen.ReferenceIdeal.Read
import proofs.«425367_j63144609185882_3_alg».proof.Proof.Spec
import Idealize.ShloMosaic.Lib.ValueIdx

noncomputable section

open scoped BigOperators

namespace Cert.ReferenceIdeal.Dense

open Cert.ReferenceIdeal Cert.ReferenceIdeal.Gen Cert.ReferenceIdeal.Read Idealize.ShloMosaic Idealize.ShloMosaic.ValueIdx

/-- The contraction's left index at entry i, position k, is (row of i, k) … -/
theorem lidx0 (i : S262144x8.Idx) (k : Fin 500) : lidx_main_v0 i k = ix2 (⟨(i 0).val, idx2_lt0 i⟩ : Fin 262144) k :=
  funext fun a => by match a with | ⟨0, _⟩ => rfl | ⟨1, _⟩ => rfl
/-- … and its right index is (k, column of i). -/
theorem ridx0 (i : S262144x8.Idx) (k : Fin 500) : ridx_main_v0 i k = ix2 k (⟨(i 1).val, idx2_lt1 i⟩ : Fin 8) :=
  funext fun a => by match a with | ⟨0, _⟩ => rfl | ⟨1, _⟩ => rfl
theorem lidx19 (i : S262144x3.Idx) (k : Fin 8) : lidx_main_v19 i k = ix2 (⟨(i 0).val, idx2_lt0 i⟩ : Fin 262144) k :=
  funext fun a => by match a with | ⟨0, _⟩ => rfl | ⟨1, _⟩ => rfl
theorem ridx19 (i : S262144x3.Idx) (k : Fin 8) : ridx_main_v19 i k = ix2 k (⟨(i 1).val, idx2_lt1 i⟩ : Fin 3) :=
  funext fun a => by match a with | ⟨0, _⟩ => rfl | ⟨1, _⟩ => rfl
/-- The bias, broadcast to a row and then down the nodes, read at (r, k) is its k-th number. -/
theorem bias_idx (r : Fin 262144) (k : Fin 8) : idx_main_v15 (idx_main_v16 (ix2 r k)) = ix1 k :=
  funext fun a => by match a with | ⟨0, _⟩ => rfl

/-- The reference's first product is layer 1. -/
theorem layer1 (x : FVec Ideal S262144x500 .f32) (w : FVec Ideal S500x8 .f32) :
    val_main_v0 (F := Ideal) x w = Cert.Gcn.dense1 x w := by
  funext i
  rw [val_main_v0_apply]
  unfold Cert.Gcn.dense1
  refine Finset.sum_congr rfl fun k _ => ?_
  rw [lidx0, ridx0]

/-- The reference's second product, of the clipped biased sums, is layer 2 at any 1×8 row holding the bias's numbers. -/
theorem layer2 (x : FVec Ideal S262144x500 .f32) (e : IVec S2x8388608 32) (w1 : FVec Ideal S500x8 .f32)
    (b1 : FVec Ideal S8 .f32) (w2 : FVec Ideal S8x3 .f32) (b : FVec Ideal S1x8 .f32)
    (hb : ∀ k : Fin 8, b (ix2 (0 : Fin 1) k) = b1 (ix1 k)) :
    val_main_v19 (F := Ideal) x e w1 b1 w2 = Cert.Gcn.dense2 (val_main_v14 (F := Ideal) x e w1) b w2 := by
  funext i
  rw [val_main_v19_apply]
  unfold Cert.Gcn.dense2
  refine Finset.sum_congr rfl fun k _ => ?_
  rw [val_main_v18_apply, val_main_v17_apply, val_main_v16_apply, val_main_v15_apply, val_main_call0_v0_apply,
    val_main_call0_cst_apply, lidx19, ridx19, bias_idx, hb]
  rfl

/-- The reference's result with both products named. -/
theorem result_form (x : FVec Ideal S262144x500 .f32) (e : IVec S2x8388608 32) (w1 : FVec Ideal S500x8 .f32)
    (b1 : FVec Ideal S8 .f32) (w2 : FVec Ideal S8x3 .f32) (b2 : FVec Ideal S3 .f32) (b : FVec Ideal S1x8 .f32)
    (hb : ∀ k : Fin 8, b (ix2 (0 : Fin 1) k) = b1 (ix1 k)) :
    val_main_v36 (F := Ideal) x e w1 b1 w2 b2
      = addf (Host.scatterAdd scatter_S262144x3_S8388608x1_S8388608x3_1_0_0_1 (val_main_v31 (F := Ideal)) (val_main_v32 (F := Ideal) e)
          (Host.gather gather_S262144x3_S8388608x1_S8388608x3_1_0_n_n_0_1_13
            (Cert.Gcn.dense2
              (Host.scatterAdd scatter_S262144x8_S8388608x1_S8388608x8_1_0_0_1 (val_main_v12 (F := Ideal)) (val_main_v13 (F := Ideal) e)
                (Host.gather gather_S262144x8_S8388608x1_S8388608x8_1_0_n_n_0_1_18 (Cert.Gcn.dense1 x w1) (val_main_v10 (F := Ideal) e)))
              b w2)
            (val_main_v29 (F := Ideal) e)))
        (val_main_v35 (F := Ideal) b2) := by
  unfold val_main_v36 val_main_v33 val_main_v30
  rw [layer2 x e w1 b1 w2 b hb]
  unfold val_main_v14 val_main_v11
  rw [layer1]

end Cert.ReferenceIdeal.Dense

end
-- ==== Proof.PreDecode.lean ====
/-
  What the precondition says about the edge list. Its last conjunct states, for every edge, that the source-node word,
  read as a signed integer, is at least −262144 and below 262144. Evaluating the printed predicate at its one index and
  splitting its conjunctions gives the two comparison bits at every edge.
-/
import proofs.«425367_j63144609185882_3_alg».proof.Pre_finite_inputs
import Idealize.ShloMosaic.Lib.ReduceAll
import Idealize.ShloMosaic.Lib.ValueIdx

noncomputable section

namespace Cert.Pre_finite_inputs.Decode

open Cert.Pre_finite_inputs Idealize.ShloMosaic
open Facts

variable [Facts] {F : FTy → Type} [FloatOps F]

instance : Subsingleton S_.Idx := ⟨fun a b => funext fun d => d.elim0⟩

/-- Row 0 of the edge list as the precondition reads it. -/
def srcRow (e : IVec S2x8388608 32) : IVec S8388608 32 :=
  shapeCast S8388608 (extractStridedSlice S1x8388608 ![0, 0] e slices_S2x8388608_S1x8388608_0_0) shapeCasts_S1x8388608_S8388608

/-- Under the precondition every source word lies in [−262144, 262144) as a signed integer: both comparison bits are set. -/
theorem src_in_range (x : FVec F S262144x500 .f32) (e : IVec S2x8388608 32) (w1 : FVec F S500x8 .f32) (b1 : FVec F S8 .f32)
    (w2 : FVec F S8x3 .f32) (b2 : FVec F S3 .f32) (h : fn (F := F) x e w1 b1 w2 b2 = fun _ => 1#1) (i : S8388608.Idx) :
    IntOp.cmpi .sge (srcRow e i) 4294705152#32 = 1#1 ∧ IntOp.cmpi .slt (srcRow e i) 262144#32 = 1#1 := by
  have h0 := congrFun h ValueIdx.ix0
  dsimp only [fn, fn_part1] at h0
  obtain ⟨-, h33⟩ := IntOp.andi_eq_one.1 h0
  have hall := Host.reduce_andi_all _ _ _ _ _ h33 i
  exact IntOp.andi_eq_one.1 hall

end Cert.Pre_finite_inputs.Decode

end
-- ==== Proof.lean ====
/-
  Two programs for a two-layer graph convolution over a fixed edge list agree on the extended reals. Each layer
  multiplies the node features by a weight matrix, looks the product's rows up by every edge's source node, and sums them
  into the edge's destination node; the first layer's sums get a bias and are clipped at zero before the second layer,
  and the second layer's sums get the output bias. One program computes the two matrix products tile by tile over the
  rows (4096 rows at a time, then 8192, the bias and the clipping fused into the second product) and looks rows up with
  a bounds test that replaces an out-of-table row by a fill word; the other computes the products whole and looks rows
  up plainly.

  At the ideal instance a change of float format is the identity and a matrix product into a zero accumulator is the
  plain sum over the contracted positions, so each tiled product is the whole product: every output row lies in exactly
  one tile, and the tile holds that row of the whole-array formula (the two region modules). The precondition bounds
  every source index w by −262144 ≤ w < 262144; both programs turn a negative index into one counted from the end, and
  the wrapped index is then a row of the table, so the bounds test passes on every edge and the masked lookup is the
  plain lookup. The sums by destination are the same operation on the same operands in both programs. Hence the two
  results are the same function of the arguments. Finiteness of the float arguments is not used: no step moves a factor
  across a sum.
-/
import proofs.«425367_j63144609185882_3_alg».proof.Defs
import proofs.«425367_j63144609185882_3_alg».proof.Proof.Gen.Kernel
import proofs.«425367_j63144609185882_3_alg».proof.Proof.Gen.Kernel.Skeleton
import proofs.«425367_j63144609185882_3_alg».proof.Proof.Gen.Kernel.Launch
import proofs.«425367_j63144609185882_3_alg».proof.Proof.Gen.Kernel.Points
import proofs.«425367_j63144609185882_3_alg».proof.Proof.Gen.Kernel.Frame
import proofs.«425367_j63144609185882_3_alg».proof.Proof.Gen.KernelIdeal
import proofs.«425367_j63144609185882_3_alg».proof.Proof.Gen.KernelIdeal.Skeleton
import proofs.«425367_j63144609185882_3_alg».proof.Proof.Gen.KernelIdeal.Launch
import proofs.«425367_j63144609185882_3_alg».proof.Proof.Gen.KernelIdeal.Points
import proofs.«425367_j63144609185882_3_alg».proof.Proof.Gen.KernelIdeal.Frame
import proofs.«425367_j63144609185882_3_alg».proof.Proof.Gen.ReferenceIdeal
import proofs.«425367_j63144609185882_3_alg».proof.Proof.Gen.ReferenceIdeal.Run
import proofs.«425367_j63144609185882_3_alg».proof.Proof.Gen.ReferenceIdeal.Read
import proofs.«425367_j63144609185882_3_alg».proof.Proof.Gen.Pre_finite_inputs
import proofs.«425367_j63144609185882_3_alg».proof.Proof.KernelRun
import proofs.«425367_j63144609185882_3_alg».proof.Proof.KernelValue
import proofs.«425367_j63144609185882_3_alg».proof.Proof.Take
import proofs.«425367_j63144609185882_3_alg».proof.Proof.RefSide
import proofs.«425367_j63144609185882_3_alg».proof.Proof.PreDecode
import Idealize.ShloMosaic.Lib.ValueLayout
import Idealize.ShloMosaic.Adequacy
import Idealize.ShloMosaic.Init

noncomputable section

namespace Cert.Proof

open Idealize.ShloMosaic Idealize.ShloMosaic.TcCoe Idealize.ShloMosaic.ValueIdx Idealize.SL.Sem

/-! ## The three frames and the idealization -/

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)
/-- The ideal pass rewrote nothing. -/
theorem preserves : Cert.preserves_Kernel_KernelIdeal := trivial

/-! ## The two results are one function of the arguments -/

/-- The precondition's last conjunct, at the kernel program's reading of the source row. -/
theorem src_ok (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Chain.InRange
      (Cert.KernelIdeal.Chain.srcRow (m ((c.tc : Thread Cert.KernelIdeal.nD Cert.KernelIdeal.τ).loc Cert.KernelIdeal.main_arg1))) :=
  fun i => Cert.Pre_finite_inputs.Decode.src_in_range _ _ _ _ _ _ (hpre c) i

/-- With the source indices in range, the reference's result is the kernel program's composition: the two matrix
    products are the two layer formulas, the masked lookups are plain lookups, and the rest is the same operations. -/
theorem result_eq (x : FVec Ideal Cert.KernelIdeal.S262144x500 .f32) (e : IVec Cert.KernelIdeal.S2x8388608 32)
    (w1 : FVec Ideal Cert.KernelIdeal.S500x8 .f32) (b1 : FVec Ideal Cert.KernelIdeal.S8 .f32)
    (w2 : FVec Ideal Cert.KernelIdeal.S8x3 .f32) (b2 : FVec Ideal Cert.KernelIdeal.S3 .f32)
    (hs : Cert.KernelIdeal.Chain.InRange (Cert.KernelIdeal.Chain.srcRow e)) :
    Cert.ReferenceIdeal.Read.val_main_v36 (F := Ideal) x e w1 b1 w2 b2
      = Cert.KernelIdeal.Chain.program (F := Ideal) Cert.Gcn.dense1 Cert.Gcn.dense2 x e w1 b1 w2 b2 := by
  rw [Cert.ReferenceIdeal.Dense.result_form x e w1 b1 w2 b2
    (shapeCast Cert.KernelIdeal.S1x8 b1 Cert.KernelIdeal.Gen.shapeCasts_S8_S1x8)
    (fun k => shapeCast_a_1a_apply b1 Cert.KernelIdeal.Gen.shapeCasts_S8_S1x8 0 k)]
  unfold Cert.KernelIdeal.Chain.program
  rw [Cert.KernelIdeal.Chain.take3_eq _ _ hs, Cert.KernelIdeal.Chain.take8_eq _ _ hs]
  rfl

/-- Both programs run, and end with equal results: the kernel program's result buffer holds the composition of the
    arguments (the run with the result read, and `kernel_value`), the reference's holds its own term of the same
    arguments (its generated run), and the two are equal under the precondition (`result_eq`). -/
theorem algebraic : Cert.algebraic_KernelIdeal_ReferenceIdeal := by
  intro m ρ m' ρ' hpre hagree
  refine ⟨fun c => Cert.KernelIdeal.Gen.W5 m ρ c (Proc.devRef .tc Cert.KernelIdeal.main_v0), Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2,
    Cert.ReferenceIdeal.Read.val_main_v36_eq]
  show _ = Cert.KernelIdeal.Gen.W5 m ρ c (Proc.devRef .tc Cert.KernelIdeal.main_v0)
  rw [Cert.KernelIdeal.Chain.kernel_value]
  exact result_eq _ _ _ _ _ _ (src_ok m hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
